-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x1200000 : S_.BroadcastsInDim S2x1200000 (![] : Fin 0 → Fin S2x1200000.rank)
  reducesTo_S2x1200000_S_d0_1 : S2x1200000.ReducesTo [0, 1] S_

variable [Facts]

def fn_part2 {F : FTy → Type} [FloatOps F] (main_arg1 : IVec S2x1200000 32) (main_v33 : IVec S_ 1) : IVec S_ 1 :=
  let main_c_12 : IVec S_ 32 := constantI S_ 32 0#32
  let main_v34 : IVec S2x1200000 32 := broadcastInDim S2x1200000 ![] bcast_S_S2x1200000 main_c_12
  let main_v35 : IVec S2x1200000 1 := cmpi .sge main_arg1 main_v34
  let main_c_13 : IVec S_ 1 := constantI S_ 1 1#1
  let main_v36 : IVec S_ 1 := (fun x v => Host.reduce IntOp.andi x v reducesTo_S2x1200000_S_d0_1 h_S_) main_v35 main_c_13
  let main_v37 : IVec S_ 1 := andi main_v33 main_v36
  let main_c_14 : IVec S_ 32 := constantI S_ 32 100000#32
  let main_v38 : IVec S2x1200000 32 := broadcastInDim S2x1200000 ![] bcast_S_S2x1200000 main_c_14
  let main_v39 : IVec S2x1200000 1 := cmpi .slt main_arg1 main_v38
  let main_c_15 : IVec S_ 1 := constantI S_ 1 1#1
  let main_v40 : IVec S_ 1 := (fun x v => Host.reduce IntOp.andi x v reducesTo_S2x1200000_S_d0_1 h_S_) main_v39 main_c_15
  let main_v41 : IVec S_ 1 := andi main_v37 main_v40
  main_v41

def fn_part1 {F : FTy → Type} [FloatOps F] (main_arg1 : IVec S2x1200000 32) (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S10000x64 : Shape := ⟨2, ![10000, 64]⟩
abbrev S1300000x64 : Shape := ⟨2, ![1300000, 64]⟩
abbrev S1x64 : Shape := ⟨2, ![1, 64]⟩
abbrev S50000x128 : Shape := ⟨2, ![50000, 128]⟩
abbrev S2x64 : Shape := ⟨2, ![2, 64]⟩
abbrev S128 : Shape := ⟨1, ![128]⟩
abbrev S1x128 : Shape := ⟨2, ![1, 128]⟩
abbrev S10000x128 : Shape := ⟨2, ![10000, 128]⟩

abbrev nBuf : Space → Nat
  | .hbm => 88
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S1x1200000, .i32⟩
  | .hbm, ⟨13, _⟩ => ⟨S1200000, .i32⟩
  | .hbm, ⟨14, _⟩ => ⟨S1300000, .i32⟩
  | .hbm, ⟨15, _⟩ => ⟨S_, .f32⟩
  | .hbm, ⟨16, _⟩ => ⟨S1300000, .f32⟩
  | .hbm, ⟨17, _⟩ => ⟨S_, .f32⟩
  | .hbm, ⟨18, _⟩ => ⟨S100000, .f32⟩
  | .hbm, ⟨19, _⟩ => ⟨S1300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1300000, .i32⟩
  | .hbm, ⟨31, _⟩ => ⟨S1300000, .i1⟩
  | .hbm, ⟨32, _⟩ => ⟨S_, .i32⟩
  | .hbm, ⟨33, _⟩ => ⟨S1300000, .i32⟩
  | .hbm, ⟨34, _⟩ => ⟨S1300000, .i32⟩
  | .hbm, ⟨35, _⟩ => ⟨S1300000, .i32⟩
  | .hbm, ⟨36, _⟩ => ⟨S1300000x1, .i32⟩
  | .hbm, ⟨37, _⟩ => ⟨S1300000, .f32⟩
  | .hbm, ⟨38, _⟩ => ⟨S_, .i32⟩
  | .hbm, ⟨39, _⟩ => ⟨S1300000, .i32⟩
  | .hbm, ⟨40, _⟩ => ⟨S1300000, .i1⟩
  | .hbm, ⟨41, _⟩ => ⟨S_, .i32⟩
  | .hbm, ⟨42, _⟩ => ⟨S1300000, .i32⟩
  | .hbm, ⟨43, _⟩ => ⟨S1300000, .i32⟩
  | .hbm, ⟨44, _⟩ => ⟨S1300000, .i32⟩
  | .hbm, ⟨45, _⟩ => ⟨S1300000x1, .i32⟩
  | .hbm, ⟨46, _⟩ => ⟨S1300000, .f32⟩
  | .hbm, ⟨47, _⟩ => ⟨S1300000, .f32⟩
  | .hbm, ⟨48, _⟩ => ⟨S1300000x1, .f32⟩
  | .hbm, ⟨49, _⟩ => ⟨S100000x64, .bf16⟩
  | .hbm, ⟨50, _⟩ => ⟨S1300000x1, .i32⟩
  | .hbm, ⟨51, _⟩ => ⟨S1300000x64, .bf16⟩
  | .hbm, ⟨52, _⟩ => ⟨S1300000x64, .f32⟩
  | .hbm, ⟨53, _⟩ => ⟨S1300000x64, .f32⟩
  | .hbm, ⟨54, _⟩ => ⟨S1300000x64, .f32⟩
  | .hbm, ⟨55, _⟩ => ⟨S_, .f32⟩
  | .hbm, ⟨56, _⟩ => ⟨S100000x64, .f32⟩
  | .hbm, ⟨57, _⟩ => ⟨S1300000x1, .i32⟩
  | .hbm, ⟨58, _⟩ => ⟨S100000x64, .f32⟩
  | .hbm, ⟨59, _⟩ => ⟨S1x64, .f32⟩
  | .hbm, ⟨60, _⟩ => ⟨S100000x64, .bf16⟩
  | .hbm, ⟨61, _⟩ => ⟨S1300000x1, .i32⟩
  | .hbm, ⟨62, _⟩ => ⟨S1300000x64, .bf16⟩
  | .hbm, ⟨63, _⟩ => ⟨S1300000x64, .f32⟩
  | .hbm, ⟨64, _⟩ => ⟨S1300000x64, .f32⟩
  | .hbm, ⟨65, _⟩ => ⟨S1300000x64, .f32⟩
  | .hbm, ⟨66, _⟩ => ⟨S_, .f32⟩
  | .hbm, ⟨67, _⟩ => ⟨S100000x64, .f32⟩
  | .hbm, ⟨68, _⟩ => ⟨S1300000x1, .i32⟩
  | .hbm, ⟨69, _⟩ => ⟨S100000x64, .f32⟩
  | .hbm, ⟨70, _⟩ => ⟨S1x64, .f32⟩
  | .hbm, ⟨71, _⟩ => ⟨S100000x64, .bf16⟩
  | .hbm, ⟨72, _⟩ => ⟨S1300000x1, .i32⟩
  | .hbm, ⟨73, _⟩ => ⟨S1300000x64, .bf16⟩
  | .hbm, ⟨74, _⟩ => ⟨S1300000x64, .f32⟩
  | .hbm, ⟨75, _⟩ => ⟨S1300000x64, .f32⟩
  | .hbm, ⟨76, _⟩ => ⟨S1300000x64, .f32⟩
  | .hbm, ⟨77, _⟩ => ⟨S_, .f32⟩
  | .hbm, ⟨78, _⟩ => ⟨S100000x64, .f32⟩
  | .hbm, ⟨79, _⟩ => ⟨S1300000x1, .i32⟩
  | .hbm, ⟨80, _⟩ => ⟨S100000x64, .f32⟩
  | .hbm, ⟨81, _⟩ => ⟨S50000x128, .f32⟩
  | .hbm, ⟨82, _⟩ => ⟨S1x64, .f32⟩
  | .hbm, ⟨83, _⟩ => ⟨S2x64, .f32⟩
  | .hbm, ⟨84, _⟩ => ⟨S128, .f32⟩
  | .hbm, ⟨85, _⟩ => ⟨S1x128, .f32⟩
  | .hbm, ⟨86, _⟩ => ⟨S50000x128, .f32⟩
  | .hbm, ⟨87, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .bf16⟩
  | .local _ .vmem, ⟨10, _⟩ => ⟨S10000x64, .bf16⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .bf16⟩
  | .local _ .vmem, ⟨16, _⟩ => ⟨S10000x64, .bf16⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call2_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call3_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S10000x64_S10000x64_0_0 : (Rect.unit (s := S10000x64) ![0, 0] S10000x64.size inb_S10000x64_S10000x64_0_0).PackedRows (EltTy.packing .bf16)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S100000x64_S50000x128 : S100000x64.ShapeCasts S50000x128
  bcast_S1x64_S2x64_0_1 : S1x64.BroadcastsInDim S2x64 (![0, 1] : Fin 2 → Fin S2x64.rank)
  shapeCasts_S2x64_S128 : S2x64.ShapeCasts S128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S50000x128_S100000x64 : S50000x128.ShapeCasts S100000x64
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x64_S64x64_S10000x64_1_0_0_1_n_n_wf : DotDims.WF S10000x64 S64x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .bf16 = 32 ∨ (Rect.block (s := S100000x64) S10000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .bf16 = 32 ∨ (Rect.block (s := S100000x64) S10000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v57) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S1x1200000, .i32⟩
  | .hbm, ⟨13, _⟩ => ⟨S1200000, .i32⟩
  | .hbm, ⟨14, _⟩ => ⟨S1300000, .i32⟩
  | .hbm, ⟨15, _⟩ => ⟨S_, .f32⟩
  | .hbm, ⟨16, _⟩ => ⟨S1300000, .f32⟩
  | .hbm, ⟨17, _⟩ => ⟨S_, .f32⟩
  | .hbm, ⟨18, _⟩ => ⟨S100000, .f32⟩
  | .hbm, ⟨19, _⟩ => ⟨S1300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1300000, .i32⟩
  | .hbm, ⟨31, _⟩ => ⟨S1300000, .i1⟩
  | .hbm, ⟨32, _⟩ => ⟨S_, .i32⟩
  | .hbm, ⟨33, _⟩ => ⟨S1300000, .i32⟩
  | .hbm, ⟨34, _⟩ => ⟨S1300000, .i32⟩
  | .hbm, ⟨35, _⟩ => ⟨S1300000, .i32⟩
  | .hbm, ⟨36, _⟩ => ⟨S1300000x1, .i32⟩
  | .hbm, ⟨37, _⟩ => ⟨S1300000, .f32⟩
  | .hbm, ⟨38, _⟩ => ⟨S_, .i32⟩
  | .hbm, ⟨39, _⟩ => ⟨S1300000, .i32⟩
  | .hbm, ⟨40, _⟩ => ⟨S1300000, .i1⟩
  | .hbm, ⟨41, _⟩ => ⟨S_, .i32⟩
  | .hbm, ⟨42, _⟩ => ⟨S1300000, .i32⟩
  | .hbm, ⟨43, _⟩ => ⟨S1300000, .i32⟩
  | .hbm, ⟨44, _⟩ => ⟨S1300000, .i32⟩
  | .hbm, ⟨45, _⟩ => ⟨S1300000x1, .i32⟩
  | .hbm, ⟨46, _⟩ => ⟨S1300000, .f32⟩
  | .hbm, ⟨47, _⟩ => ⟨S1300000, .f32⟩
  | .hbm, ⟨48, _⟩ => ⟨S100000x64, .f32⟩
  | .hbm, ⟨49, _⟩ => ⟨S_, .i32⟩
  | .hbm, ⟨50, _⟩ => ⟨S1300000, .i32⟩
  | .hbm, ⟨51, _⟩ => ⟨S1300000, .i1⟩
  | .hbm, ⟨52, _⟩ => ⟨S_, .i32⟩
  | .hbm, ⟨53, _⟩ => ⟨S1300000, .i32⟩
  | .hbm, ⟨54, _⟩ => ⟨S1300000, .i32⟩
  | .hbm, ⟨55, _⟩ => ⟨S1300000, .i32⟩
  | .hbm, ⟨56, _⟩ => ⟨S1300000x1, .i32⟩
  | .hbm, ⟨57, _⟩ => ⟨S1300000x64, .f32⟩
  | .hbm, ⟨58, _⟩ => ⟨S1300000x1, .f32⟩
  | .hbm, ⟨59, _⟩ => ⟨S1300000x64, .f32⟩
  | .hbm, ⟨60, _⟩ => ⟨S1300000x64, .f32⟩
  | .hbm, ⟨61, _⟩ => ⟨S_, .f32⟩
  | .hbm, ⟨62, _⟩ => ⟨S100000x64, .f32⟩
  | .hbm, ⟨63, _⟩ => ⟨S1300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1300000, .i32⟩
  | .hbm, ⟨74, _⟩ => ⟨S1300000, .i1⟩
  | .hbm, ⟨75, _⟩ => ⟨S_, .i32⟩
  | .hbm, ⟨76, _⟩ => ⟨S1300000, .i32⟩
  | .hbm, ⟨77, _⟩ => ⟨S1300000, .i32⟩
  | .hbm, ⟨78, _⟩ => ⟨S1300000, .i32⟩
  | .hbm, ⟨79, _⟩ => ⟨S1300000x1, .i32⟩
  | .hbm, ⟨80, _⟩ => ⟨S1300000x64, .f32⟩
  | .hbm, ⟨81, _⟩ => ⟨S1300000x1, .f32⟩
  | .hbm, ⟨82, _⟩ => ⟨S1300000x64, .f32⟩
  | .hbm, ⟨83, _⟩ => ⟨S1300000x64, .f32⟩
  | .hbm, ⟨84, _⟩ => ⟨S_, .f32⟩
  | .hbm, ⟨85, _⟩ => ⟨S100000x64, .f32⟩
  | .hbm, ⟨86, _⟩ => ⟨S1300000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .i32⟩
  | .hbm, ⟨96, _⟩ => ⟨S1300000, .i32⟩
  | .hbm, ⟨97, _⟩ => ⟨S1300000, .i1⟩
  | .hbm, ⟨98, _⟩ => ⟨S_, .i32⟩
  | .hbm, ⟨99, _⟩ => ⟨S1300000, .i32⟩
  | .hbm, ⟨100, _⟩ => ⟨S1300000, .i32⟩
  | .hbm, ⟨101, _⟩ => ⟨S1300000, .i32⟩
  | .hbm, ⟨102, _⟩ => ⟨S1300000x1, .i32⟩
  | .hbm, ⟨103, _⟩ => ⟨S1300000x64, .f32⟩
  | .hbm, ⟨104, _⟩ => ⟨S1300000x1, .f32⟩
  | .hbm, ⟨105, _⟩ => ⟨S1300000x64, .f32⟩
  | .hbm, ⟨106, _⟩ => ⟨S1300000x64, .f32⟩
  | .hbm, ⟨107, _⟩ => ⟨S_, .f32⟩
  | .hbm, ⟨108, _⟩ => ⟨S100000x64, .f32⟩
  | .hbm, ⟨109, _⟩ => ⟨S1300000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.Spec.lean ====
/-
  The mathematics both programs compute, index by index on the extended reals, for a graph of 100000 nodes
  with 64 features per node.

  * `linear a w`: the rows of `a` times the 64 × 64 weight matrix `w`, entry (r, j) the sum over k of
    a(r, k) · w(k, j).
  * `biasRelu s b`: the positive part of `s` plus the bias row, entry (r, j) = max (s(r, j) + b(0, j)) 0.
  * `rowOf b`: a vector of 64 numbers as a 1 × 64 row.
  * `addRow s b`: `s` plus the bias, entry (r, j) = s(r, j) + b(j).
  * `addWide s q`: the same sum in the layout that packs two node rows into one row of 128.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- Node features: 100000 rows of 64. -/
abbrev SN : Shape := ⟨2, ![100000, 64]⟩
/-- A weight matrix. -/
abbrev SW : Shape := ⟨2, ![64, 64]⟩
/-- A bias as a row. -/
abbrev SR : Shape := ⟨2, ![1, 64]⟩
/-- A bias as a vector. -/
abbrev SV : Shape := ⟨1, ![64]⟩

/-- The row coordinate of a node-feature index, as a number below 100000. -/
abbrev rowN (i : SN.Idx) : Fin 100000 := ⟨(i 0).val, (i 0).isLt⟩
/-- The feature coordinate of a node-feature index, as a number below 64. -/
abbrev colN (i : SN.Idx) : Fin 64 := ⟨(i 1).val, (i 1).isLt⟩

/-- Rows times weights: entry (r, j) is the sum over k of a(r, k) · w(k, j). -/
def linear (a : SN.Idx → EReal) (w : SW.Idx → EReal) : SN.Idx → EReal :=
  fun i => ∑ k : Fin 64, a (ix2 (rowN i) k) * w (ix2 k (colN i))

/-- A vector of 64 numbers laid out as a 1 × 64 row. -/
def rowOf (b : SV.Idx → EReal) : SR.Idx → EReal :=
  fun i => b (ix1 ⟨(i 1).val, (i 1).isLt⟩)

/-- The positive part of the sum with the bias row: entry (r, j) = max (s(r, j) + b(0, j)) 0. -/
def biasRelu (s : SN.Idx → EReal) (b : SR.Idx → EReal) : SN.Idx → EReal :=
  fun i => max (s i + b (ix2 (0 : Fin 1) (colN i))) 0

/-- The node features packed two rows to a row of 128. -/
abbrev SP : Shape := ⟨2, ![50000, 128]⟩
/-- A row of 128. -/
abbrev SQ : Shape := ⟨2, ![1, 128]⟩

/-- In the packed layout: entry (r, l) = s(r, l) + q(0, l). -/
def addWide (s : SP.Idx → EReal) (q : SQ.Idx → EReal) : SP.Idx → EReal :=
  fun i => s i + q (ix2 (0 : Fin 1) (⟨(i 1).val, (i 1).isLt⟩ : Fin 128))

/-- The sum with the bias: entry (r, j) = s(r, j) + b(j). -/
def addRow (s : SN.Idx → EReal) (b : SV.Idx → EReal) : SN.Idx → EReal :=
  fun i => s i + b (ix1 (colN i))

end Cert.Gcn

end
-- ==== Proof.Region0.lean ====
/-
  Region 0 of the kernel's program, as ONE function of the arrays it finds.

  The region walks ten grid points. Point t takes rows 10000·t … 10000·t + 9999 of the 100000 × 64 array (all 64
  columns), the whole 64 × 64 weight matrix, multiplies them, and writes the 10000 × 64 product to the same rows of
  the output array. On the extended reals a change of float format is the identity and a matrix product into a zero
  accumulator is the plain sum of products, so entry (r, j) of what point r / 10000 writes is
  ∑ k, a(r, k) · w(k, j): the output array ends as `linear a w`, because the ten row blocks tile its rows.
-/
import proofs.«418978_j88115549044789_2_alg».proof.Proof.Gen.KernelIdeal.Frame
import proofs.«418978_j88115549044789_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.Gcn

-- the TensorCore's buffer contents when the region is entered
variable (V : (c : Dev nD) → (b : Ref sig .tc) → Buf (Elt Ideal) ((c : Thread nD τ).loc b))

/-! ## One entry of a block product -/

/-- The body reads and writes its buffers from their first entry: offset (0, 0). -/
theorem zero_offsets : (![0, 0] : Fin 2 → Nat) = fun _ => 0 := funext fun a => by fin_cases a <;> rfl

/-- In the product of a 10000 × 64 block with the 64 × 64 matrix, the left factor of the term at output (r, j)
    and contraction index k sits in row r … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and column k; -/
theorem lhs_contracted (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right factor sits in row k … -/
theorem rhs_contracted (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and column j. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (p, q) of the body's result from a 10000 × 64 block `x` and the 64 × 64 matrix `w`: the two changes of
    float format are the identity on extended reals, and the product into the zero accumulator is the sum over the
    contracted axis, ∑ k, x(p, k) · w(k, q). -/
theorem body_entry (x : Vec Ideal S10000x64 .f32) (w : Vec Ideal S64x64 .f32) (p : Fin 10000) (q : Fin 64) :
    k0_pay1 (F := Ideal) x w (ix2 p q) = ∑ k : Fin 64, x (ix2 p k) * w (ix2 k q) := by
  unfold k0_pay1
  refine (Ideal.matmul_constant_zero_apply dot_S10000x64_S64x64_S10000x64_1_0_0_1_n_n none _ _ (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_contracted _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_contracted _ _).trans hk
    | ⟨1, _⟩ => exact rhs_col _ _)
  rw [el, er]
  rfl

/-- If row (j 0) of the block `x` is row (rowN i) of the array `A`, and column (j 1) of `w` is column (colN i) of
    `W`, then entry j of the body's result is entry i of `linear A W`: the two sums agree term by term. -/
theorem body_entry_of_reads (A : SN.Idx → EReal) (W : SW.Idx → EReal) (x : Vec Ideal S10000x64 .f32) (w : Vec Ideal S64x64 .f32)
    (j : S10000x64.Idx) (i : SN.Idx)
    (hx : ∀ k : Fin 64, x (ix2 (n0 := 10000) (n1 := 64) (j 0) k) = A (ix2 (rowN i) k))
    (hw : ∀ k : Fin 64, w (ix2 (n0 := 64) (n1 := 64) k (j 1)) = W (ix2 k (colN i))) :
    k0_pay1 (F := Ideal) x w j = linear A W i := by
  obtain ⟨p, q, rfl⟩ : ∃ (p : Fin 10000) (q : Fin 64), j = ix2 p q := ⟨j 0, j 1, eq_ix2 j⟩
  rw [body_entry]
  unfold linear
  exact Finset.sum_congr rfl fun k _ => by rw [← hx k, ← hw k]

/-! ## Which rows a grid point sees -/

/-- Block indices over the grid: at point t the first window is at block (t, 0), the weight matrix at (0, 0), the
    output at (t, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (y0, y1) of the first window's block at point t is entry (10000·t + y0, y1) of its array. -/
theorem rows_block (c : Dev nD) (t : Fin cfg0.N) (y : S10000x64.Idx) (i : S100000x64.Idx)
    (h0 : (i 0).val = t.val * 10000 + (y 0).val) (h1 : (i 1).val = (y 1).val) :
    (iblk0 V c 0 t : Vec Ideal S10000x64 .f32) y = (V c main_arg0 : S100000x64.Idx → EReal) i := by
  obtain ⟨e0, e1, -⟩ := block_indices t
  unfold iblk0
  rw [View.read_apply]
  show V c main_arg0 _ = V c main_arg0 _
  congr 1
  funext a
  apply Fin.ext
  match a with
  | ⟨0, _⟩ => show win0_0.index t 0 * 10000 + 1 * (y 0).val = (i 0).val; rw [e0, h0]; omega
  | ⟨1, _⟩ => show win0_0.index t 1 * 64 + 1 * (y 1).val = (i 1).val; rw [e1, h1]; omega

/-- The second window's block is the whole weight matrix, at every point. -/
theorem weights_block (c : Dev nD) (t : Fin cfg0.N) (y : S64x64.Idx) :
    (iblk0 V c 1 t : Vec Ideal S64x64 .f32) y = (V c main_arg2 : S64x64.Idx → EReal) y := by
  obtain ⟨-, -, e0, e1, -⟩ := block_indices t
  unfold iblk0
  rw [View.read_apply]
  show V c main_arg2 _ = V c main_arg2 _
  congr 1
  funext a
  apply Fin.ext
  match a with
  | ⟨0, _⟩ => show win0_1.index t 0 * 64 + 1 * (y 0).val = (y 0).val; rw [e0]; omega
  | ⟨1, _⟩ => show win0_1.index t 1 * 64 + 1 * (y 1).val = (y 1).val; rw [e1]; omega

/-- Entry (j0, j1) of the output's block at point t is entry (10000·t + j0, j1) of the output array. -/
theorem out_block_coords (t : Fin cfg0.N) (j : S10000x64.Idx) :
    ((((cfg0.win 2).blk t).view.emb j) 0).val = t.val * 10000 + (j 0).val
      ∧ ((((cfg0.win 2).blk t).view.emb j) 1).val = (j 1).val := by
  obtain ⟨-, -, -, -, e4, e5⟩ := block_indices t
  constructor
  · show win0_2.index t 0 * 10000 + 1 * (j 0).val = _; rw [e4]; omega
  · show win0_2.index t 1 * 64 + 1 * (j 1).val = _; rw [e5]; omega

/-! ## From the blocks to the array -/

/-- What point t writes back is rows 10000·t … 10000·t + 9999 of `linear a w`: the output block's row 10000·t + j0
    is computed from the same row of the first array and from the whole weight matrix. -/
theorem written_back (c : Dev nD) (t : Fin cfg0.N) :
    (dat0 (F := Ideal) V c).flushed 2 t = ((cfg0.win 2).blk t).view.read (Elt Ideal) (linear (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x64) zero_offsets]
  funext j
  show k0_pay1 (F := Ideal) (iblk0 V c 0 t) (iblk0 V c 1 t) j = linear (V c main_arg0) (V c main_arg2) (((cfg0.win 2).blk t).view.emb j)
  obtain ⟨h0, h1⟩ := out_block_coords t j
  refine body_entry_of_reads (V c main_arg0) (V c main_arg2) (iblk0 V c 0 t) (iblk0 V c 1 t) j (((cfg0.win 2).blk t).view.emb j) (fun k => ?_) (fun k => ?_)
  · exact rows_block V c t _ _ h0 rfl
  · refine (weights_block V c t _).trans (congrArg (V c main_arg2) ?_)
    funext a
    apply Fin.ext
    match a with
    | ⟨0, _⟩ => rfl
    | ⟨1, _⟩ => exact h1.symm

/-- An index of the output array is in point t's block iff each coordinate is in the block's range on its axis. -/
theorem mem_out_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Every row r of the output array is written: by point r / 10000, whose block holds rows
    10000·(r / 10000) … 10000·(r / 10000) + 9999 and all 64 columns. -/
theorem rows_covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; rw [hN]; omega⟩
  obtain ⟨-, -, -, -, e4, e5⟩ := block_indices t
  have e4' : win0_2.index t (0 : Fin 2) = (i 0).val / 10000 := e4
  refine ⟨t, flush0_2 t, ?_⟩
  rw [mem_out_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the ten grid points the output array holds the rows of the first window's array times the second
    window's 64 × 64 matrix. -/
theorem final (c : Dev nD) :
    (dat0 (F := Ideal) V c).arrAt 2 cfg0.N = linear (V c main_arg0) (V c main_arg2) :=
  (dat0 V c).arrAt_eq_of_cover 2 (linear (V c main_arg0) (V c main_arg2)) (fun t _ => written_back V c t) rows_covered

end Cert.KernelIdeal.Region0

end
-- ==== Proof.Region1.lean ====
/-
  Region 1 of the kernel's program, as ONE function of the arrays it finds.

  The region walks ten grid points. At point t it holds rows 10000 t … 10000 t + 9999 of the node features, the
  whole 1 × 64 bias row and the whole 64 × 64 weight matrix, and writes back, for those rows, the positive part of
  (features + bias) times the weights. On the extended reals a change of float format is the identity and the
  matrix product into a zero accumulator is the plain sum over the 64 inner indices, so each written block is the
  matching block of ONE function of the three whole arrays; the ten blocks tile the 100000 rows.
-/
import proofs.«418978_j88115549044789_2_alg».proof.Proof.Gen.KernelIdeal.Frame
import proofs.«418978_j88115549044789_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.Gcn

-- the TensorCore's buffer contents when the region is entered
variable (V : (c : Dev nD) → (b : Ref sig .tc) → Buf (Elt Ideal) ((c : Thread nD τ).loc b))

/-! ## The matrix product's operand indices -/

/-- Both block offsets of a whole-buffer access are zero. -/
theorem hz : (![0, 0] : Fin 2 → Nat) = fun _ => 0 := funext fun a => by fin_cases a <;> rfl

/-- The product's left operand is read at the output's row … -/
theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the summation index as its column; -/
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the summation index as its row … -/
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and at the output's column. -/
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## One block's result at an index -/

set_option maxHeartbeats 400000 in
/-- One block's result at row p, column q: the sum over k of the positive part of (x(p, k) + b(0, k)) times w(k, q).
    On the extended reals a change of float format is the identity and the product into the zero accumulator is the
    plain sum. -/
theorem pay_apply (x : Vec Ideal S10000x64 .f32) (b : Vec Ideal S1x64 .f32) (w : Vec Ideal S64x64 .f32)
    (p : Fin 10000) (q : Fin 64) :
    k1_pay1 (F := Ideal) x b w (ix2 p q) = ∑ k : Fin 64, max (x (ix2 p k) + b (ix2 (0 : Fin 1) k)) 0 * w (ix2 k q) := by
  unfold k1_pay1
  rw [truncf_apply]
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]
  rw [truncf_apply, truncf_apply, maximumf_apply, addf_apply, shapeCast_self, shapeCast_self, broadcastTo_1b_ab_apply, broadcast_apply]
  show max (x (ix2 p k) + b (ix2 (0 : Fin 1) k)) (Ideal.ofBits .f32 0x00000000#32) * w (ix2 k q) = _
  rw [Ideal.ofBits_zero_f32]

/-! ## The input blocks as parts of the whole arrays -/

/-- Where each window's block sits at grid point t: the first window's and the output's blocks are the t-th
    blocks of 10000 rows; the bias row and the weight matrix are fetched whole. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The three input blocks at a grid point and the three arrays they are cut from, at their literal types. -/
abbrev xblk (c : Dev nD) (t : Fin cfg1.N) : Vec Ideal S10000x64 .f32 := iblk1 V c 0 t
abbrev bblk (c : Dev nD) (t : Fin cfg1.N) : Vec Ideal S1x64 .f32 := iblk1 V c 1 t
abbrev wblk (c : Dev nD) (t : Fin cfg1.N) : Vec Ideal S64x64 .f32 := iblk1 V c 2 t
abbrev xarr (c : Dev nD) : Vec Ideal S100000x64 .f32 := V c main_v38
abbrev barr (c : Dev nD) : Vec Ideal S1x64 .f32 := V c main_v39
abbrev warr (c : Dev nD) : Vec Ideal S64x64 .f32 := V c main_arg4

/-- Row p of the t-th block of node features is row 10000 t + p of the array. -/
theorem xblk_apply (c : Dev nD) (t : Fin cfg1.N) (p : Fin 10000) (k : Fin 64) (r : Fin 100000)
    (hr : r.val = t.val * 10000 + p.val) :
    xblk V c t (ix2 p k) = xarr V c (ix2 r k) := by
  obtain ⟨e0, e1, -⟩ := block_index t
  unfold xblk xarr iblk1
  rw [View.read_apply]
  show V c main_v38 _ = V c main_v38 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- The bias block is the bias row. -/
theorem bblk_apply (c : Dev nD) (t : Fin cfg1.N) (k : Fin 64) :
    bblk V c t (ix2 (0 : Fin 1) k) = barr V c (ix2 (0 : Fin 1) k) := by
  obtain ⟨-, -, e0, e1, -⟩ := block_index t
  unfold bblk barr iblk1
  rw [View.read_apply]
  show V c main_v39 _ = V c main_v39 _
  congr 1
  funext a
  apply Fin.ext
  match a with
  | ⟨0, _⟩ => show win1_1.index t (0 : Fin 2) * 1 + 1 * 0 = 0; rw [e0]
  | ⟨1, _⟩ => show win1_1.index t (1 : Fin 2) * 64 + 1 * k.val = k.val; rw [e1]; omega

/-- The weight block is the weight matrix. -/
theorem wblk_apply (c : Dev nD) (t : Fin cfg1.N) (k q : Fin 64) :
    wblk V c t (ix2 k q) = warr V c (ix2 k q) := by
  obtain ⟨-, -, -, -, e0, e1, -⟩ := block_index t
  unfold wblk warr iblk1
  rw [View.read_apply]
  show V c main_arg4 _ = V c main_arg4 _
  congr 1
  funext a
  apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-! ## The whole-array function at an index -/

/-- The whole-array function at an index whose row is r and whose column is q. -/
theorem spec_apply (s : SN.Idx → EReal) (b : SR.Idx → EReal) (w : SW.Idx → EReal) (i : SN.Idx) (r : Fin 100000) (q : Fin 64)
    (hr : (i 0).val = r.val) (hq : (i 1).val = q.val) :
    linear (biasRelu s b) w i = ∑ k : Fin 64, max (s (ix2 r k) + b (ix2 (0 : Fin 1) k)) 0 * w (ix2 k q) := by
  have e0 : rowN i = r := Fin.ext hr
  have e1 : colN i = q := Fin.ext hq
  unfold linear biasRelu
  rw [e0, e1]

/-! ## What a grid point writes back -/

/-- One entry of the block a grid point computes: at row p of point t's block it is the whole-array function at row
    10000 t + p, because the block of node features holds exactly those rows and the bias and the weights are whole. -/
theorem blk_value (c : Dev nD) (t : Fin cfg1.N) (j : S10000x64.Idx) (i : SN.Idx)
    (h0 : (i 0).val = t.val * 10000 + (j 0).val) (h1 : (i 1).val = (j 1).val) :
    k1_pay1 (F := Ideal) (xblk V c t) (bblk V c t) (wblk V c t) j
      = linear (biasRelu (xarr V c) (barr V c)) (warr V c) i := by
  obtain ⟨p, q, rfl⟩ : ∃ (p : Fin 10000) (q : Fin 64), j = ix2 p q := ⟨j 0, j 1, eq_ix2 j⟩
  have ht : t.val < 10 := Nat.lt_of_lt_of_eq t.isLt N_1
  have hp : t.val * 10000 + p.val < 100000 := by have := p.isLt; omega
  rw [pay_apply, spec_apply (xarr V c) (barr V c) (warr V c) i ⟨t.val * 10000 + p.val, hp⟩ q h0 h1]
  refine Finset.sum_congr rfl fun k _ => ?_
  rw [xblk_apply V c t p k ⟨t.val * 10000 + p.val, hp⟩ rfl, bblk_apply, wblk_apply]

set_option maxHeartbeats 400000 in
/-- What grid point t writes back is the t-th block of the whole-array function. -/
theorem flushed_eq (c : Dev nD) (t : Fin cfg1.N) :
    (dat1 (F := Ideal) V c).flushed 3 t = ((cfg1.win 3).blk t).view.read (Elt Ideal) (linear (biasRelu (V c main_v38) (V c main_v39)) (V c main_arg4)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  obtain ⟨-, -, -, -, -, -, e6, e7⟩ := block_index t
  funext j
  show k1_pay1 (F := Ideal) (xblk V c t) (bblk V c t) (wblk V c t) j
    = linear (biasRelu (xarr V c) (barr V c)) (warr V c) (((cfg1.win 3).blk t).view.emb j)
  refine blk_value V c t j _ ?_ ?_
  · show win1_3.index t (0 : Fin 2) * 10000 + 1 * (j 0).val = t.val * 10000 + (j 0).val
    rw [e6]; omega
  · show win1_3.index t (1 : Fin 2) * 64 + 1 * (j 1).val = (j 1).val
    rw [e7]; omega

/-! ## The blocks tile the array -/

/-- An index of the output array lies in grid point t's block iff each coordinate lies in the block's range. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v40).slice (win1_3.rect t)).set ↔ _
  rw [View.set_slice_whole, Rect.mem_set_unit]
  exact Iff.rfl

/-- Every index of the output array is written back by some grid point: row r by point r / 10000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, -, -, e6, e7⟩ := block_index t
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    rw [e6, ht]; omega
  | ⟨1, _⟩ =>
    show win1_3.index t (1 : Fin 2) * 64 ≤ (i 1).val ∧ (i 1).val < win1_3.index t (1 : Fin 2) * 64 + 64
    rw [e7]; omega

/-! ## The array after the region -/

/-- After the ten grid points the output array holds the positive part of (first window + bias row), times the
    third window's 64 × 64 matrix. -/
theorem final (c : Dev nD) :
    (dat1 (F := Ideal) V c).arrAt 3 cfg1.N = linear (biasRelu (V c main_v38) (V c main_v39)) (V c main_arg4) := by
  exact (dat1 (F := Ideal) V c).arrAt_eq_of_cover 3
    (linear (biasRelu (V c main_v38) (V c main_v39)) (V c main_arg4)) (fun t _ => flushed_eq V c t) cover

end Cert.KernelIdeal.Region1

end
-- ==== Proof.Region2.lean ====
/-
  Region 2 of the kernel's program, as ONE function of the arrays it finds.

  The region walks ten grid points. At point t it holds rows 10000 t … 10000 t + 9999 of the node features, the
  whole 1 × 64 bias row and the whole 64 × 64 weight matrix, and writes back, for those rows, the positive part of
  (features + bias) times the weights. On the extended reals a change of float format is the identity and the
  matrix product into a zero accumulator is the plain sum over the 64 inner indices, so each written block is the
  matching block of ONE function of the three whole arrays; the ten blocks tile the 100000 rows.
-/
import proofs.«418978_j88115549044789_2_alg».proof.Proof.Gen.KernelIdeal.Frame
import proofs.«418978_j88115549044789_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.Gcn

-- the TensorCore's buffer contents when the region is entered
variable (V : (c : Dev nD) → (b : Ref sig .tc) → Buf (Elt Ideal) ((c : Thread nD τ).loc b))

/-! ## The matrix product's operand indices -/

/-- Both block offsets of a whole-buffer access are zero. -/
theorem hz : (![0, 0] : Fin 2 → Nat) = fun _ => 0 := funext fun a => by fin_cases a <;> rfl

/-- The product's left operand is read at the output's row … -/
theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the summation index as its column; -/
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the summation index as its row … -/
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and at the output's column. -/
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## One block's result at an index -/

set_option maxHeartbeats 400000 in
/-- One block's result at row p, column q: the sum over k of the positive part of (x(p, k) + b(0, k)) times w(k, q).
    On the extended reals a change of float format is the identity and the product into the zero accumulator is the
    plain sum. -/
theorem pay_apply (x : Vec Ideal S10000x64 .f32) (b : Vec Ideal S1x64 .f32) (w : Vec Ideal S64x64 .f32)
    (p : Fin 10000) (q : Fin 64) :
    k2_pay1 (F := Ideal) x b w (ix2 p q) = ∑ k : Fin 64, max (x (ix2 p k) + b (ix2 (0 : Fin 1) k)) 0 * w (ix2 k q) := by
  unfold k2_pay1
  rw [truncf_apply]
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]
  rw [truncf_apply, truncf_apply, maximumf_apply, addf_apply, shapeCast_self, shapeCast_self, broadcastTo_1b_ab_apply, broadcast_apply]
  show max (x (ix2 p k) + b (ix2 (0 : Fin 1) k)) (Ideal.ofBits .f32 0x00000000#32) * w (ix2 k q) = _
  rw [Ideal.ofBits_zero_f32]

/-! ## The input blocks as parts of the whole arrays -/

/-- Where each window's block sits at grid point t: the first window's and the output's blocks are the t-th
    blocks of 10000 rows; the bias row and the weight matrix are fetched whole. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The three input blocks at a grid point and the three arrays they are cut from, at their literal types. -/
abbrev xblk (c : Dev nD) (t : Fin cfg2.N) : Vec Ideal S10000x64 .f32 := iblk2 V c 0 t
abbrev bblk (c : Dev nD) (t : Fin cfg2.N) : Vec Ideal S1x64 .f32 := iblk2 V c 1 t
abbrev wblk (c : Dev nD) (t : Fin cfg2.N) : Vec Ideal S64x64 .f32 := iblk2 V c 2 t
abbrev xarr (c : Dev nD) : Vec Ideal S100000x64 .f32 := V c main_v47
abbrev barr (c : Dev nD) : Vec Ideal S1x64 .f32 := V c main_v48
abbrev warr (c : Dev nD) : Vec Ideal S64x64 .f32 := V c main_arg6

/-- Row p of the t-th block of node features is row 10000 t + p of the array. -/
theorem xblk_apply (c : Dev nD) (t : Fin cfg2.N) (p : Fin 10000) (k : Fin 64) (r : Fin 100000)
    (hr : r.val = t.val * 10000 + p.val) :
    xblk V c t (ix2 p k) = xarr V c (ix2 r k) := by
  obtain ⟨e0, e1, -⟩ := block_index t
  unfold xblk xarr iblk2
  rw [View.read_apply]
  show V c main_v47 _ = V c main_v47 _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 64 + 1 * k.val = k.val; rw [e1]; omega

/-- The bias block is the bias row. -/
theorem bblk_apply (c : Dev nD) (t : Fin cfg2.N) (k : Fin 64) :
    bblk V c t (ix2 (0 : Fin 1) k) = barr V c (ix2 (0 : Fin 1) k) := by
  obtain ⟨-, -, e0, e1, -⟩ := block_index t
  unfold bblk barr iblk2
  rw [View.read_apply]
  show V c main_v48 _ = V c main_v48 _
  congr 1
  funext a
  apply Fin.ext
  match a with
  | ⟨0, _⟩ => show win2_1.index t (0 : Fin 2) * 1 + 1 * 0 = 0; rw [e0]
  | ⟨1, _⟩ => show win2_1.index t (1 : Fin 2) * 64 + 1 * k.val = k.val; rw [e1]; omega

/-- The weight block is the weight matrix. -/
theorem wblk_apply (c : Dev nD) (t : Fin cfg2.N) (k q : Fin 64) :
    wblk V c t (ix2 k q) = warr V c (ix2 k q) := by
  obtain ⟨-, -, -, -, e0, e1, -⟩ := block_index t
  unfold wblk warr iblk2
  rw [View.read_apply]
  show V c main_arg6 _ = V c main_arg6 _
  congr 1
  funext a
  apply Fin.ext
  match a with
  | ⟨0, _⟩ => show win2_2.index t (0 : Fin 2) * 64 + 1 * k.val = k.val; rw [e0]; omega
  | ⟨1, _⟩ => show win2_2.index t (1 : Fin 2) * 64 + 1 * q.val = q.val; rw [e1]; omega

/-! ## The whole-array function at an index -/

/-- The whole-array function at an index whose row is r and whose column is q. -/
theorem spec_apply (s : SN.Idx → EReal) (b : SR.Idx → EReal) (w : SW.Idx → EReal) (i : SN.Idx) (r : Fin 100000) (q : Fin 64)
    (hr : (i 0).val = r.val) (hq : (i 1).val = q.val) :
    linear (biasRelu s b) w i = ∑ k : Fin 64, max (s (ix2 r k) + b (ix2 (0 : Fin 1) k)) 0 * w (ix2 k q) := by
  have e0 : rowN i = r := Fin.ext hr
  have e1 : colN i = q := Fin.ext hq
  unfold linear biasRelu
  rw [e0, e1]

/-! ## What a grid point writes back -/

/-- One entry of the block a grid point computes: at row p of point t's block it is the whole-array function at row
    10000 t + p, because the block of node features holds exactly those rows and the bias and the weights are whole. -/
theorem blk_value (c : Dev nD) (t : Fin cfg2.N) (j : S10000x64.Idx) (i : SN.Idx)
    (h0 : (i 0).val = t.val * 10000 + (j 0).val) (h1 : (i 1).val = (j 1).val) :
    k2_pay1 (F := Ideal) (xblk V c t) (bblk V c t) (wblk V c t) j
      = linear (biasRelu (xarr V c) (barr V c)) (warr V c) i := by
  obtain ⟨p, q, rfl⟩ : ∃ (p : Fin 10000) (q : Fin 64), j = ix2 p q := ⟨j 0, j 1, eq_ix2 j⟩
  have ht : t.val < 10 := Nat.lt_of_lt_of_eq t.isLt N_2
  have hp : t.val * 10000 + p.val < 100000 := by have := p.isLt; omega
  rw [pay_apply, spec_apply (xarr V c) (barr V c) (warr V c) i ⟨t.val * 10000 + p.val, hp⟩ q h0 h1]
  refine Finset.sum_congr rfl fun k _ => ?_
  rw [xblk_apply V c t p k ⟨t.val * 10000 + p.val, hp⟩ rfl, bblk_apply, wblk_apply]

set_option maxHeartbeats 400000 in
/-- What grid point t writes back is the t-th block of the whole-array function. -/
theorem flushed_eq (c : Dev nD) (t : Fin cfg2.N) :
    (dat2 (F := Ideal) V c).flushed 3 t = ((cfg2.win 3).blk t).view.read (Elt Ideal) (linear (biasRelu (V c main_v47) (V c main_v48)) (V c main_arg6)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz, View.ld_unit_zero (S := S64x64) hz]
  obtain ⟨-, -, -, -, -, -, e6, e7⟩ := block_index t
  funext j
  show k2_pay1 (F := Ideal) (xblk V c t) (bblk V c t) (wblk V c t) j
    = linear (biasRelu (xarr V c) (barr V c)) (warr V c) (((cfg2.win 3).blk t).view.emb j)
  refine blk_value V c t j _ ?_ ?_
  · show win2_3.index t (0 : Fin 2) * 10000 + 1 * (j 0).val = t.val * 10000 + (j 0).val
    rw [e6]; omega
  · show win2_3.index t (1 : Fin 2) * 64 + 1 * (j 1).val = (j 1).val
    rw [e7]; omega

/-! ## The blocks tile the array -/

/-- An index of the output array lies in grid point t's block iff each coordinate lies in the block's range. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v49).slice (win2_3.rect t)).set ↔ _
  rw [View.set_slice_whole, Rect.mem_set_unit]
  exact Iff.rfl

/-- Every index of the output array is written back by some grid point: row r by point r / 10000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by rw [show cfg2.N = 10 from N_2]; omega⟩, rfl⟩
  obtain ⟨-, -, -, -, -, -, e6, e7⟩ := block_index t
  refine ⟨t, flush2_3 t, ?_⟩
  rw [mem_blk]
  intro a
  match a with
  | ⟨0, _⟩ =>
    show win2_3.index t (0 : Fin 2) * 10000 ≤ (i 0).val ∧ (i 0).val < win2_3.index t (0 : Fin 2) * 10000 + 10000
    rw [e6, ht]; omega
  | ⟨1, _⟩ =>
    show win2_3.index t (1 : Fin 2) * 64 ≤ (i 1).val ∧ (i 1).val < win2_3.index t (1 : Fin 2) * 64 + 64
    rw [e7]; omega

/-! ## The array after the region -/

/-- After the ten grid points the output array holds the positive part of (first window + bias row), times the
    third window's 64 × 64 matrix. -/
theorem final (c : Dev nD) :
    (dat2 (F := Ideal) V c).arrAt 3 cfg2.N = linear (biasRelu (V c main_v47) (V c main_v48)) (V c main_arg6) := by
  exact (dat2 (F := Ideal) V c).arrAt_eq_of_cover 3
    (linear (biasRelu (V c main_v47) (V c main_v48)) (V c main_arg6)) (fun t _ => flushed_eq V c t) cover

end Cert.KernelIdeal.Region2

end
-- ==== Proof.Region3.lean ====
/-
  Region 3 of the kernel's program, as ONE function of the arrays it finds.

  The region adds a 1 × 128 row to every row of a 50000 × 128 array, 10000 rows at a time: grid point t takes rows
  10000·t … 10000·t + 9999 of the array (all 128 lanes), adds the row to each, and writes the sums to the same rows
  of the output. Row r of the output is therefore written by point r / 10000, and the five points cover all
  50000 rows, so the output array is entry by entry s(r, l) + row(0, l).
-/
import proofs.«418978_j88115549044789_2_alg».proof.Proof.Gen.KernelIdeal.Frame
import proofs.«418978_j88115549044789_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen Cert.Gcn

-- the TensorCore's buffer contents when the region is entered
variable (V : (c : Dev nD) → (b : Ref sig .tc) → Buf (Elt Ideal) ((c : Thread nD τ).loc b))

/-- The body reads and writes each of its blocks from its corner (0, 0). -/
theorem corner_zero : (![0, 0] : Fin 2 → Nat) = fun _ => 0 := funext fun a => by fin_cases a <;> rfl

/-- The body's sum at entry (p, l) of a block: the block's entry plus the row's entry at lane l. The two recasts
    are to the same shape, and the row is repeated down the 10000 rows of the block. -/
theorem blockSum_apply (x : Vec Ideal S10000x128 .f32) (q : Vec Ideal S1x128 .f32) (p : Fin 10000) (l : Fin 128) :
    (k3_pay1 (F := Ideal) x q : Vec Ideal S10000x128 .f32) (ix2 p l) = x (ix2 p l) + q (ix2 (0 : Fin 1) l) := by
  unfold k3_pay1
  show shapeCast S10000x128 x _ (ix2 p l) + broadcastTo S10000x128 (shapeCast S1x128 q _) _ (ix2 p l) = _
  rw [shapeCast_self, shapeCast_self, broadcastTo_1b_ab_apply]

/-- The same at any index of the block, the lane read off the index. -/
theorem blockSum_at (x : Vec Ideal S10000x128 .f32) (q : Vec Ideal S1x128 .f32) (i : S10000x128.Idx) :
    (k3_pay1 (F := Ideal) x q : Vec Ideal S10000x128 .f32) i
      = x i + q (ix2 (0 : Fin 1) (⟨(i 1).val, (i 1).isLt⟩ : Fin 128)) := by
  obtain ⟨p, l, rfl⟩ : ∃ (p : Fin 10000) (l : Fin 128), i = ix2 p l := ⟨i 0, i 1, eq_ix2 i⟩
  exact blockSum_apply x q p l

/-- Where the blocks sit: at point t the array's and the output's block is block (t, 0), the row's is (0, 0). -/
theorem block_indices : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

set_option maxHeartbeats 400000 in
/-- What point t writes back is block t of the whole-array sum: entry (p, l) of the block is array entry
    (10000·t + p, l), the input block sits on the same rows, and the row's block is the whole row. -/
theorem written_eq (c : Dev nD) (t : Fin cfg3.N) :
    (dat3 (F := Ideal) V c).flushed 2 t
      = ((cfg3.win 2).blk t).view.read (Elt Ideal) (addWide (V c main_v57) (V c main_v61)) := by
  show (cfg3.win 2).cut (grid3.coords t) ((dat3 V c).after 2 t) = _
  rw [after3_2]
  unfold out3_2
  rw [View.canon_unit_zero corner_zero]
  simp only [View.ld_unit_zero (S := S10000x128) corner_zero, View.ld_unit_zero (S := S1x128) corner_zero]
  obtain ⟨e0, e1, e2, e3, e4, e5⟩ := block_indices t
  funext j
  have hj0 : (j 0).val < 10000 := (j 0).isLt
  have hj1 : (j 1).val < 128 := (j 1).isLt
  refine (blockSum_at (iblk3 V c 0 t) (iblk3 V c 1 t) ((win3 2).xinj (grid3.coords t) j)).trans ?_
  rw [View.read_apply]
  unfold addWide
  refine congrArg₂ (fun (u v : EReal) => u + v) ?_ ?_
  · -- the input block's entry and the output block's entry are the same entry of the array
    show V c main_v57 (((cfg3.win 0).blk t).view.emb j) = V c main_v57 (((cfg3.win 2).blk t).view.emb j)
    refine congrArg (V c main_v57) (funext fun a => Fin.ext ?_)
    match a with
    | ⟨0, _⟩ =>
      show win3_0.index t (0 : Fin 2) * 10000 + 1 * (j 0).val = win3_2.index t (0 : Fin 2) * 10000 + 1 * (j 0).val
      omega
    | ⟨1, _⟩ =>
      show win3_0.index t (1 : Fin 2) * 128 + 1 * (j 1).val = win3_2.index t (1 : Fin 2) * 128 + 1 * (j 1).val
      omega
  · -- the row's block at lane l is the row at lane l, and the output's lane is the block's lane
    show V c main_v61 (((cfg3.win 1).blk t).view.emb (ix2 (0 : Fin 1) (⟨(j 1).val, hj1⟩ : Fin 128))) = _
    refine congrArg (V c main_v61) (funext fun a => Fin.ext ?_)
    match a with
    | ⟨0, _⟩ =>
      show win3_1.index t (0 : Fin 2) * 1 + 1 * 0 = 0
      omega
    | ⟨1, _⟩ =>
      show win3_1.index t (1 : Fin 2) * 128 + 1 * (j 1).val = win3_2.index t (1 : Fin 2) * 128 + 1 * (j 1).val
      omega

/-- An entry of the output array is in point t's block iff each coordinate is in the block's range on its axis. -/
theorem mem_block (t : Fin cfg3.N) (i : S50000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v62).slice (win3_2.rect t)).set ↔ _
  rw [View.set_slice_whole, Rect.mem_set_unit]
  exact Iff.rfl

/-- Every entry (r, l) of the output array is written: by point r / 10000, which is below 5 since r < 50000. -/
theorem rows_covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 5 := N_3
  have ht : (i 0).val / 10000 < cfg3.N := by
    show (i 0).val / 10000 < grid3.N
    omega
  obtain ⟨-, -, -, -, e4, e5⟩ := block_indices ⟨(i 0).val / 10000, ht⟩
  have e4' : win3_2.index ⟨(i 0).val / 10000, ht⟩ (0 : Fin 2) = (i 0).val / 10000 := e4
  refine ⟨⟨(i 0).val / 10000, ht⟩, flush3_2 _, ?_⟩
  rw [mem_block]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    omega
  | ⟨1, _⟩ =>
    show win3_2.index ⟨(i 0).val / 10000, ht⟩ (1 : Fin 2) * 128 ≤ (i 1).val
      ∧ (i 1).val < win3_2.index ⟨(i 0).val / 10000, ht⟩ (1 : Fin 2) * 128 + 128
    omega

/-- After the five grid points the 50000 × 128 output array holds the first window's array plus the 1 × 128 row,
    entry (r, l) = s(r, l) + row(0, l). -/
theorem final (c : Dev nD) :
    (dat3 (F := Ideal) V c).arrAt 2 cfg3.N
      = addWide (V c main_v57) (V c main_v61) := by
  exact (dat3 V c).arrAt_eq_of_cover 2 (addWide (V c main_v57) (V c main_v61))
    (fun t _ => written_eq V c t) rows_covered

end Cert.KernelIdeal.Region3

end
-- ==== Proof.RefLayers.lean ====
/-
  The reference's stages, layer by layer, in the vocabulary of the specification: its three `dot_general`s are
  `linear`, its bias-then-relu is `biasRelu`, its last bias is `addRow`.
-/
import proofs.«418978_j88115549044789_2_alg».proof.Proof.RefRead
import proofs.«418978_j88115549044789_2_alg».proof.Proof.Spec

set_option maxRecDepth 16384

noncomputable section

namespace Cert.ReferenceIdeal.Layers

open Idealize.ShloMosaic Idealize.ShloMosaic.TcCoe Idealize.ShloMosaic.ValueIdx Idealize.SL.Sem
open Cert.ReferenceIdeal Cert.ReferenceIdeal.ReadP Cert.Gcn

variable (x0 : (⟨S100000x64, .f32⟩ : BufTy).Contents (Elt Ideal)) (x1 : (⟨S2x1200000, .i32⟩ : BufTy).Contents (Elt Ideal))
  (x2 x4 x6 : (⟨S64x64, .f32⟩ : BufTy).Contents (Elt Ideal)) (x3 x5 x7 : (⟨S64, .f32⟩ : BufTy).Contents (Elt Ideal))

/-! ## Where each stage reads its operands

The three products read the left operand at (row of `i`, `k`) and the weights at (`k`, column of `i`); a bias
vector, made a 1 × 64 row and then repeated down the 100000 rows, is read at the column of `i`. -/

/-- The left operand's index in the product of stage 30: row of `i`, column `k`. -/
theorem lidx_v30 (i : S100000x64.Idx) (k : Fin 64) : lidx_main_v30 i k = ix2 (rowN i) k :=
  funext fun a => Fin.ext (by match a with | ⟨0, _⟩ => rfl | ⟨1, _⟩ => rfl)
/-- The right operand's index in the product of stage 30: row `k`, column of `i`. -/
theorem ridx_v30 (i : S100000x64.Idx) (k : Fin 64) : ridx_main_v30 i k = ix2 k (colN i) :=
  funext fun a => Fin.ext (by match a with | ⟨0, _⟩ => rfl | ⟨1, _⟩ => rfl)

/-- The left operand's index in the product of stage 48: row of `i`, column `k`. -/
theorem lidx_v48 (i : S100000x64.Idx) (k : Fin 64) : lidx_main_v48 i k = ix2 (rowN i) k :=
  funext fun a => Fin.ext (by match a with | ⟨0, _⟩ => rfl | ⟨1, _⟩ => rfl)
/-- The right operand's index in the product of stage 48: row `k`, column of `i`. -/
theorem ridx_v48 (i : S100000x64.Idx) (k : Fin 64) : ridx_main_v48 i k = ix2 k (colN i) :=
  funext fun a => Fin.ext (by match a with | ⟨0, _⟩ => rfl | ⟨1, _⟩ => rfl)

/-- The left operand's index in the product of stage 66: row of `i`, column `k`. -/
theorem lidx_v66 (i : S100000x64.Idx) (k : Fin 64) : lidx_main_v66 i k = ix2 (rowN i) k :=
  funext fun a => Fin.ext (by match a with | ⟨0, _⟩ => rfl | ⟨1, _⟩ => rfl)
/-- The right operand's index in the product of stage 66: row `k`, column of `i`. -/
theorem ridx_v66 (i : S100000x64.Idx) (k : Fin 64) : ridx_main_v66 i k = ix2 k (colN i) :=
  funext fun a => Fin.ext (by match a with | ⟨0, _⟩ => rfl | ⟨1, _⟩ => rfl)

/-- Layer 1's bias, as a row repeated down the rows, is read at the column of `i`. -/
theorem bidx_v45 (i : S100000x64.Idx) : idx_main_v44 (idx_main_v45 i) = ix1 (colN i) :=
  funext fun a => Fin.ext (by match a with | ⟨0, _⟩ => rfl)
/-- Layer 2's bias, as a row repeated down the rows, is read at the column of `i`. -/
theorem bidx_v63 (i : S100000x64.Idx) : idx_main_v62 (idx_main_v63 i) = ix1 (colN i) :=
  funext fun a => Fin.ext (by match a with | ⟨0, _⟩ => rfl)
/-- Layer 3's bias, as a row repeated down the rows, is read at the column of `i`. -/
theorem bidx_v81 (i : S100000x64.Idx) : idx_main_v80 (idx_main_v81 i) = ix1 (colN i) :=
  funext fun a => Fin.ext (by match a with | ⟨0, _⟩ => rfl)

/-! ## The stages -/

/-- Layer 1's product. -/
theorem v30_eq : val_main_v30 (F := Ideal) x0 x2 = linear x0 x2 := by
  funext i
  rw [val_main_v30_apply]
  simp only [linear, lidx_v30, ridx_v30]

/-- Layer 1's bias and relu. -/
theorem v47_eq : val_main_v47 (F := Ideal) x0 x1 x2 x3 = biasRelu (val_main_v43 (F := Ideal) x0 x1 x2) (rowOf x3) := by
  funext i
  rw [val_main_v47_apply, val_main_v46_apply, val_main_call1_v0_apply, val_main_call1_cst_apply, val_main_v45_apply,
    val_main_v44_apply]
  generalize val_main_v43 (F := Ideal) x0 x1 x2 = s
  simp only [biasRelu, rowOf, bidx_v45, Ideal.addf_def, Ideal.maximumf_def, Ideal.ofBits_def, Ideal.ofBits_zero_f32]

/-- Layer 2's product. -/
theorem v48_eq : val_main_v48 (F := Ideal) x0 x1 x2 x3 x4 = linear (val_main_v47 (F := Ideal) x0 x1 x2 x3) x4 := by
  funext i
  rw [val_main_v48_apply]
  generalize val_main_v47 (F := Ideal) x0 x1 x2 x3 = s
  simp only [linear, lidx_v48, ridx_v48]

/-- Layer 2's bias and relu. -/
theorem v65_eq : val_main_v65 (F := Ideal) x0 x1 x2 x3 x4 x5 = biasRelu (val_main_v61 (F := Ideal) x0 x1 x2 x3 x4) (rowOf x5) := by
  funext i
  rw [val_main_v65_apply, val_main_v64_apply, val_main_call2_v0_apply, val_main_call2_cst_apply, val_main_v63_apply,
    val_main_v62_apply]
  generalize val_main_v61 (F := Ideal) x0 x1 x2 x3 x4 = s
  simp only [biasRelu, rowOf, bidx_v63, Ideal.addf_def, Ideal.maximumf_def, Ideal.ofBits_def, Ideal.ofBits_zero_f32]

/-- Layer 3's product. -/
theorem v66_eq : val_main_v66 (F := Ideal) x0 x1 x2 x3 x4 x5 x6 = linear (val_main_v65 (F := Ideal) x0 x1 x2 x3 x4 x5) x6 := by
  funext i
  rw [val_main_v66_apply]
  generalize val_main_v65 (F := Ideal) x0 x1 x2 x3 x4 x5 = s
  simp only [linear, lidx_v66, ridx_v66]

/-- Layer 3's bias. -/
theorem v82_eq : val_main_v82 (F := Ideal) x0 x1 x2 x3 x4 x5 x6 x7 = addRow (val_main_v79 (F := Ideal) x0 x1 x2 x3 x4 x5 x6) x7 := by
  funext i
  rw [val_main_v82_apply, val_main_v81_apply, val_main_v80_apply]
  generalize val_main_v79 (F := Ideal) x0 x1 x2 x3 x4 x5 x6 = s
  simp only [addRow, bidx_v81, Ideal.addf_def]

end Cert.ReferenceIdeal.Layers

end
-- ==== Proof.SourceIndex.lean ====
/-
  Under the precondition every entry of the edge list is a node number, 0 ≤ e < 100000. The reference reads a row of
  the node features at `if s < 0 then s + 100000 else s` for each source index `s` (an edge's source, or a node's own
  number for its self loop); for a source index that is not negative this is `s` itself.

  The steps: the precondition's conjunct "every entry of the edge list is at least 0 (signed)" is read off the
  precondition's conjunction (`edge_nonneg`); the source index is the 1200000 edge sources followed by the 100000 node numbers, and both
  pieces are at least 0 — the first by that conjunct, the second because a number below 100000 has its sign bit clear
  (`source_nonneg`); and an elementwise `if v < 0 then v + k else v` over entries that are at least 0 is `v`
  (`select_wrap`), used once for each of the three layers.
-/
import proofs.«418978_j88115549044789_2_alg».proof.Proof.RefRead
import proofs.«418978_j88115549044789_2_alg».proof.Pre_finite_inputs
import proofs.«418978_j88115549044789_2_alg».proof.Proof.Gen.Pre_finite_inputs
import Idealize.ShloMosaic.Lib.ReduceAll
import Idealize.ShloMosaic.Lib.StableHlo.Predicate
import Idealize.ShloMosaic.Lib.Pipeline.Value
import Idealize.ShloMosaic.Lib.ValueIdx

set_option maxRecDepth 16384

noncomputable section

namespace Cert.ReferenceIdeal.SourceIndex

open Idealize.ShloMosaic Idealize.ShloMosaic.TcCoe Idealize.ShloMosaic.ValueIdx Idealize.SL.Sem
open Cert.ReferenceIdeal Cert.ReferenceIdeal.ReadP

/-- THE PRECONDITION DECODED: every entry of the edge list is at least 0 as a signed word (the second-to-last conjunct of the
    precondition is the conjunction, over all entries, of that comparison against the broadcast constant 0). -/
theorem edge_nonneg (x0 : FVec Ideal S100000x64 .f32) (x1 : IVec S2x1200000 32) (x2 x4 x6 : FVec Ideal S64x64 .f32) (x3 x5 x7 : FVec Ideal S64 .f32)
    (hpre : Cert.Pre_finite_inputs.fn (F := Ideal) x0 x1 x2 x3 x4 x5 x6 x7 = fun _ => 1#1) (i : S2x1200000.Idx) :
    IntOp.cmpi .sge (x1 i) 0#32 = 1#1 := by
  -- a scalar's shape has one index
  haveI : Subsingleton Cert.Pre_finite_inputs.S_.Idx := ⟨fun a b => funext fun d => d.elim0⟩
  have h := congrFun hpre ValueIdx.ix0
  dsimp only [Cert.Pre_finite_inputs.fn, Cert.Pre_finite_inputs.fn_part1, Cert.Pre_finite_inputs.fn_part2] at h
  -- the conjunction is ((… ∧ all (e ≥ 0)) ∧ all (e < 100000)): drop the last conjunct, keep the one before it
  obtain ⟨h1, -⟩ := IntOp.andi_eq_one.1 h
  obtain ⟨-, h2⟩ := IntOp.andi_eq_one.1 h1
  exact Host.reduce_andi_all _ _ _ _ _ h2 i

/-- A word that is at least 0 signed is not below 0 signed: `0 ≤ w` and `w < 0` are one order's two sides. -/
theorem slt_zero_of_sge_zero (w : BitVec 32) (h : IntOp.cmpi .sge w 0#32 = 1#1) : IntOp.cmpi .slt w 0#32 = 0#1 := by
  unfold IntOp.cmpi at h ⊢
  rw [StableHlo.Predicate.ofBool_eq_one_iff] at h
  simp only [BitVec.sle, decide_eq_true_eq] at h
  have hlt : w.slt 0#32 = false := by
    simp only [BitVec.slt, decide_eq_false_iff_not]
    omega
  rw [hlt]
  rfl

/-- A node number, as a 32-bit word, is at least 0 signed: it is below 2³¹, so its sign bit is clear. -/
theorem sge_zero_ofNat (n : Nat) (hn : n < 2 ^ 31) : IntOp.cmpi .sge (BitVec.ofNat 32 n) 0#32 = 1#1 := by
  unfold IntOp.cmpi
  exact (StableHlo.Predicate.sle_ofNat_iff 0 n (by decide) hn).2 (Nat.zero_le n)

/-- THE WRAP OF A NON-NEGATIVE INDEX IS THE INDEX. `if v < z then v + k else v`, elementwise, with `z` all zeros and every
    entry of `v` at least 0, is `v`: the comparison is 0 at every entry, so the selection takes its last operand. -/
theorem select_wrap {s : Shape} (v z k : IVec s 32) (hz : ∀ e, z e = 0#32) (hv : ∀ e, IntOp.cmpi .sge (v e) 0#32 = 1#1) :
    select (cmpi .slt v z) (addi v k) v = v := by
  funext e
  rw [select_apply]
  show Scalar.select (IntOp.cmpi .slt (v e) (z e)) _ _ = v e
  rw [hz e, slt_zero_of_sge_zero _ (hv e), select_zero]

/-- Every source index is at least 0: the first 1200000 are the edge sources (row 0 of the edge list), the last 100000
    each node's own number. -/
theorem source_nonneg (x1 : IVec S2x1200000 32) (hx : ∀ i : S2x1200000.Idx, IntOp.cmpi .sge (x1 i) 0#32 = 1#1) (e : S1300000.Idx) :
    IntOp.cmpi .sge (val_main_v3 (F := Ideal) x1 e) 0#32 = 1#1 := by
  have he : (e 0).val < 1300000 := (e 0).isLt
  unfold val_main_v3
  by_cases hlt : (e 0).val < 1200000
  · -- an edge's source: row 0 of the edge list at this position
    rw [concatenate_pair_apply_left (t := S1300000) (s₁ := S1200000) (s₂ := S100000) 0 _ _ _ e rfl (ix1 (n := 1200000) ⟨(e 0).val, hlt⟩) (fun b => by
      match b with | ⟨0, _⟩ => rfl)]
    rw [val_main_v2_apply, val_main_v1_apply]
    exact hx _
  · -- a self loop: the node's own number, below 100000
    have hn : (e 0).val - 1200000 < 100000 := by omega
    rw [concatenate_pair_apply_right (t := S1300000) (s₁ := S1200000) (s₂ := S100000) 0 _ _ _ e rfl rfl (ix1 (n := 100000) ⟨(e 0).val - 1200000, hn⟩)
      (fun b hb => absurd (Fin.ext (by have hb1 : b.val < 1 := b.isLt; show b.val = 0; omega)) hb)
      (by show (e 0).val - 1200000 + 1200000 = (e 0).val; omega)]
    rw [val_main_v0_apply]
    exact sge_zero_ofNat _ (by show (e 0).val - 1200000 < 2 ^ 31; omega)

/-- The wrapped source index of each of the three layers is the source index. -/
theorem wrap_eq (x0 : FVec Ideal S100000x64 .f32) (x1 : IVec S2x1200000 32) (x2 x4 x6 : FVec Ideal S64x64 .f32) (x3 x5 x7 : FVec Ideal S64 .f32)
    (hpre : Cert.Pre_finite_inputs.fn (F := Ideal) x0 x1 x2 x3 x4 x5 x6 x7 = fun _ => 1#1) :
    val_main_v35 (F := Ideal) x1 = val_main_v3 (F := Ideal) x1
    ∧ val_main_v53 (F := Ideal) x1 = val_main_v3 (F := Ideal) x1
    ∧ val_main_v71 (F := Ideal) x1 = val_main_v3 (F := Ideal) x1 := by
  have hv := source_nonneg x1 (edge_nonneg x0 x1 x2 x4 x6 x3 x5 x7 hpre)
  refine ⟨?_, ?_, ?_⟩
  · unfold val_main_v35 val_main_v32 val_main_v34
    exact select_wrap _ _ _ (fun e => by rw [val_main_v31_apply, val_main_c_6_apply]) hv
  · unfold val_main_v53 val_main_v50 val_main_v52
    exact select_wrap _ _ _ (fun e => by rw [val_main_v49_apply, val_main_c_9_apply]) hv
  · unfold val_main_v71 val_main_v68 val_main_v70
    exact select_wrap _ _ _ (fun e => by rw [val_main_v67_apply, val_main_c_12_apply]) hv

end Cert.ReferenceIdeal.SourceIndex

end
-- ==== Proof.Untile.lean ====
/-
  The last region works on the node features packed two rows to a row of 128, with the bias laid out twice along
  a row of 128. Unpacked, that sum is the plain sum with the bias: entry (r, j) = s(r, j) + b(j).

  A row-major recast keeps the flat position of every entry. Node entry (r, j) sits at flat position 64·r + j, and
  packed entry (p, l) at 128·p + l; so node entry (r, j) is packed entry (r / 2, 64·(r mod 2) + j). The bias laid
  out twice has, at lane l = 64·h + j with h < 2, the value b(j): the two rows of 64 are both the bias, and
  flattening them puts row h at lanes 64·h … 64·h + 63.
-/
import proofs.«418978_j88115549044789_2_alg».proof.Proof.Spec
import Idealize.ShloMosaic.Lib.Pipeline.Value
import Idealize.ShloMosaic.Lib.ValueIdx
import Idealize.ShloMosaic.Lib.ValueLayout

noncomputable section

namespace Cert.Gcn

open Idealize.ShloMosaic Idealize.ShloMosaic.ValueIdx

/-- The bias as two rows of 64. -/
abbrev ST : Shape := ⟨2, ![2, 64]⟩
/-- The bias laid out twice, as one vector of 128. -/
abbrev SU : Shape := ⟨1, ![128]⟩

/-- The packed array at (p, l) is the node array at (r, j) whenever the two flat positions agree,
    128·p + l = 64·r + j. -/
theorem pack_apply (s : SN.Idx → EReal) (hpack : SN.ShapeCasts SP) (r : Fin 100000) (j : Fin 64)
    (p : Fin 50000) (l : Fin 128) (h : p.val * 128 + l.val = r.val * 64 + j.val) :
    shapeCast SP s hpack (ix2 p l) = s (ix2 r j) :=
  shapeCast_apply s hpack (ix2 p l) (ix2 r j) (by
    rw [Shape.rowMajor_val_two, Shape.rowMajor_val_two]
    show r.val * 64 + j.val = p.val * 128 + l.val
    exact h.symm)

/-- Unpacking reads the packed array back where the flat positions agree. -/
theorem unpack_apply (x : SP.Idx → EReal) (hunpack : SP.ShapeCasts SN) (r : Fin 100000) (j : Fin 64)
    (p : Fin 50000) (l : Fin 128) (h : p.val * 128 + l.val = r.val * 64 + j.val) :
    shapeCast SN x hunpack (ix2 r j) = x (ix2 p l) :=
  shapeCast_apply x hunpack (ix2 r j) (ix2 p l) (by
    rw [Shape.rowMajor_val_two, Shape.rowMajor_val_two]
    show p.val * 128 + l.val = r.val * 64 + j.val
    exact h)

/-- A vector of 64 recast as a 1 × 64 row is `rowOf`. -/
theorem shapeCast_row (b : SV.Idx → EReal) (hrow : SV.ShapeCasts SR) : shapeCast SR b hrow = rowOf b := by
  funext i
  obtain ⟨u, j, rfl⟩ : ∃ (u : Fin 1) (j : Fin 64), i = ix2 u j := ⟨i 0, i 1, eq_ix2 i⟩
  exact shapeCast_a_1a_apply b hrow u j

/-- The row of 64 laid out as two rows: both rows are the bias. -/
theorem twice_apply (q : SR.Idx → EReal) (htwice : SR.BroadcastsInDim ST ![0, 1]) (h : Fin 2) (j : Fin 64) :
    broadcastInDim ST ![0, 1] htwice q (ix2 h j) = q (ix2 (0 : Fin 1) j) := by
  refine broadcastInDim_apply ![0, 1] htwice q (ix2 h j) (ix2 (0 : Fin 1) j) fun a => ?_
  match a with
  | ⟨0, _⟩ => rfl
  | ⟨1, _⟩ => rfl

/-- The twice-laid-out bias at lane l = 64·h + j is b(j). -/
theorem wide_apply (b : SV.Idx → EReal) (hrow : SV.ShapeCasts SR) (htwice : SR.BroadcastsInDim ST ![0, 1])
    (hflat : ST.ShapeCasts SU) (hwide : SU.ShapeCasts SQ) (h : Fin 2) (j : Fin 64) (l : Fin 128)
    (hl : l.val = 64 * h.val + j.val) :
    shapeCast SQ (shapeCast SU (broadcastInDim ST ![0, 1] htwice (shapeCast SR b hrow)) hflat) hwide
        (ix2 (0 : Fin 1) l) = b (ix1 j) := by
  rw [shapeCast_a_1a_apply _ hwide (0 : Fin 1) l]
  rw [shapeCast_apply _ hflat (ix1 l) (ix2 h j) (by
    rw [Shape.rowMajor_val_two, Shape.rowMajor_val_one]
    show h.val * 64 + j.val = l.val
    omega)]
  rw [twice_apply, shapeCast_a_1a_apply b hrow (0 : Fin 1) j]

/-- Pack, add the twice-laid-out bias, unpack: the sum with the bias. -/
theorem untile (s : SN.Idx → EReal) (b : SV.Idx → EReal)
    (hpack : SN.ShapeCasts SP) (hunpack : SP.ShapeCasts SN) (hrow : SV.ShapeCasts SR)
    (htwice : SR.BroadcastsInDim ST ![0, 1]) (hflat : ST.ShapeCasts SU) (hwide : SU.ShapeCasts SQ) :
    shapeCast SN (addWide (shapeCast SP s hpack)
        (shapeCast SQ (shapeCast SU (broadcastInDim ST ![0, 1] htwice (shapeCast SR b hrow)) hflat) hwide)) hunpack
      = addRow s b := by
  funext i
  obtain ⟨r, j, rfl⟩ : ∃ (r : Fin 100000) (j : Fin 64), i = ix2 r j := ⟨i 0, i 1, eq_ix2 i⟩
  have hr := r.isLt
  have hj := j.isLt
  -- node entry (r, j) is packed entry (r / 2, 64·(r mod 2) + j)
  have hpos : (⟨r.val / 2, by omega⟩ : Fin 50000).val * 128
      + (⟨64 * (r.val % 2) + j.val, by omega⟩ : Fin 128).val = r.val * 64 + j.val := by
    show r.val / 2 * 128 + (64 * (r.val % 2) + j.val) = r.val * 64 + j.val
    omega
  rw [unpack_apply _ hunpack r j ⟨r.val / 2, by omega⟩ ⟨64 * (r.val % 2) + j.val, by omega⟩ hpos]
  show shapeCast SP s hpack (ix2 (⟨r.val / 2, _⟩ : Fin 50000) (⟨64 * (r.val % 2) + j.val, _⟩ : Fin 128))
      + shapeCast SQ (shapeCast SU (broadcastInDim ST ![0, 1] htwice (shapeCast SR b hrow)) hflat) hwide
          (ix2 (0 : Fin 1) (⟨64 * (r.val % 2) + j.val, _⟩ : Fin 128))
    = s (ix2 r j) + b (ix1 j)
  rw [pack_apply s hpack r j _ _ hpos,
    wide_apply b hrow htwice hflat hwide ⟨r.val % 2, by omega⟩ j _ rfl]

end Cert.Gcn

end
-- ==== Proof.KernelValue.lean ====
/-
  The kernel's program read from its launch memory to its result buffer: the host stretches between the four regions
  compute the same indices, edge weights and message passing as the reference's stages; the regions compute the
  reference's products, bias and relu. Under the precondition (every entry of the edge list is a node number) the
  reference's wrap of a negative source index does nothing, and the two results are one function of the arguments.
-/
import proofs.«418978_j88115549044789_2_alg».proof.Proof.Gen.KernelIdeal.Frame
import proofs.«418978_j88115549044789_2_alg».proof.Proof.RefRead
import proofs.«418978_j88115549044789_2_alg».proof.Proof.Spec
import proofs.«418978_j88115549044789_2_alg».proof.Proof.Region0
import proofs.«418978_j88115549044789_2_alg».proof.Proof.Region1
import proofs.«418978_j88115549044789_2_alg».proof.Proof.Region2
import proofs.«418978_j88115549044789_2_alg».proof.Proof.Region3
import proofs.«418978_j88115549044789_2_alg».proof.Proof.RefLayers
import proofs.«418978_j88115549044789_2_alg».proof.Proof.SourceIndex
import proofs.«418978_j88115549044789_2_alg».proof.Proof.Untile
import Idealize.ShloMosaic.Lib.StableHlo.Run

set_option maxRecDepth 16384

noncomputable section

namespace Cert.KernelIdeal.HostChain

open Idealize.ShloMosaic Idealize.ShloMosaic.TcCoe Idealize.ShloMosaic.ValueIdx Idealize.SL.Sem
open Cert.KernelIdeal Cert.KernelIdeal.Gen Cert.Gcn Cert.ReferenceIdeal.ReadP

/-! ## Region 0's entry, for any float values: the indices and the edge weights

The host operations before region 0 are, operation for operation, the reference's first stages. -/

section AnyFloat

variable {F : FTy → Type} [FloatOps F]
variable (m : (ℓ : Loc nD τ sig) → Buf (Elt F) ℓ) (ρ : Dev nD → PrngReg)

set_option maxHeartbeats 4000000 in
/-- The source index of every edge and self loop. -/
theorem src_any (c : Dev nD) : W3 m ρ c (Proc.devRef .tc main_v3) = val_main_v3 (F := F) (m ((c.tc : Thread nD τ).loc main_arg1)) := by
  show StableHlo.after hostOps0_2 (StableHlo.after hostOps0_1 (StableHlo.after hostOps0 (W0 m ρ c))) (Proc.devRef .tc main_v3) = _
  after_results
  rfl

set_option maxHeartbeats 4000000 in
/-- The destination index of every edge and self loop. -/
theorem dst_any (c : Dev nD) : W3 m ρ c (Proc.devRef .tc main_v6) = val_main_v6 (F := F) (m ((c.tc : Thread nD τ).loc main_arg1)) := by
  show StableHlo.after hostOps0_2 (StableHlo.after hostOps0_1 (StableHlo.after hostOps0 (W0 m ρ c))) (Proc.devRef .tc main_v6) = _
  after_results
  rfl

set_option maxHeartbeats 40000000 in
/-- The edge weights: the product of the two end nodes' inverse square-root degrees. -/
theorem nrm_any (c : Dev nD) : W3 m ρ c (Proc.devRef .tc main_v30) = val_main_v38 (F := F) (m ((c.tc : Thread nD τ).loc main_arg1)) := by
  show StableHlo.after hostOps0_2 (StableHlo.after hostOps0_1 (StableHlo.after hostOps0 (W0 m ρ c))) (Proc.devRef .tc main_v30) = _
  after_results_simp
  rfl

end AnyFloat

variable (m : (ℓ : Loc nD τ sig) → Buf (Elt Ideal) ℓ) (ρ : Dev nD → PrngReg)

/-- The arguments as launched. -/
abbrev X0 (c : Dev nD) : FVec Ideal S100000x64 .f32 := m ((c.tc : Thread nD τ).loc main_arg0)
abbrev X1 (c : Dev nD) : IVec S2x1200000 32 := m ((c.tc : Thread nD τ).loc main_arg1)
abbrev X2 (c : Dev nD) : FVec Ideal S64x64 .f32 := m ((c.tc : Thread nD τ).loc main_arg2)
abbrev X3 (c : Dev nD) : FVec Ideal S64 .f32 := m ((c.tc : Thread nD τ).loc main_arg3)
abbrev X4 (c : Dev nD) : FVec Ideal S64x64 .f32 := m ((c.tc : Thread nD τ).loc main_arg4)
abbrev X5 (c : Dev nD) : FVec Ideal S64 .f32 := m ((c.tc : Thread nD τ).loc main_arg5)
abbrev X6 (c : Dev nD) : FVec Ideal S64x64 .f32 := m ((c.tc : Thread nD τ).loc main_arg6)
abbrev X7 (c : Dev nD) : FVec Ideal S64 .f32 := m ((c.tc : Thread nD τ).loc main_arg7)

theorem src_3 (c : Dev nD) : W3 m ρ c (Proc.devRef .tc main_v3) = val_main_v3 (F := Ideal) (X1 m c) := src_any m ρ c
theorem dst_3 (c : Dev nD) : W3 m ρ c (Proc.devRef .tc main_v6) = val_main_v6 (F := Ideal) (X1 m c) := dst_any m ρ c
theorem nrm_3 (c : Dev nD) : W3 m ρ c (Proc.devRef .tc main_v30) = val_main_v38 (F := Ideal) (X1 m c) := nrm_any m ρ c

/-! ## One layer's message passing, as the kernel's host code spells it

Gather the rows of `h` at the source indices, scale each by its edge weight, and add it into its destination row. -/

/-- Rows of `h` gathered at `src`, times the edge weights `nrm`, summed into the rows `dst`. -/
def aggregate (src dst : IVec S1300000 32) (nrm : FVec Ideal S1300000x1 .f32) (h : FVec Ideal S100000x64 .bf16) :
    FVec Ideal S100000x64 .f32 :=
  Host.scatterAdd scatter_S100000x64_S1300000x1_S1300000x64_1_0_0_1
    (broadcastInDim S100000x64 ![] bcast_S_S100000x64 (constant S_ .f32 0x00000000#32))
    (broadcastInDim S1300000x1 ![0] bcast_S1300000_S1300000x1_0 dst)
    (mulf (extf .f32 (Host.gather gather_S100000x64_S1300000x1_S1300000x64_1_0_n_n_0_1_164 h
        (broadcastInDim S1300000x1 ![0] bcast_S1300000_S1300000x1_0 src)) bitsLt_bf16_f32)
      (broadcastInDim S1300000x64 ![0, 1] bcast_S1300000x1_S1300000x64_0_1 nrm))

/-! ## Region 0's entry: no host operation before it writes an argument -/

theorem arg0_3 (c : Dev nD) : W3 m ρ c (Proc.devRef .tc main_arg0) = X0 m c := by
  show StableHlo.after hostOps0_2 (StableHlo.after hostOps0_1 (StableHlo.after hostOps0 (W0 m ρ c))) (Proc.devRef .tc main_arg0) = _
  after_results
theorem arg2_3 (c : Dev nD) : W3 m ρ c (Proc.devRef .tc main_arg2) = X2 m c := by
  show StableHlo.after hostOps0_2 (StableHlo.after hostOps0_1 (StableHlo.after hostOps0 (W0 m ρ c))) (Proc.devRef .tc main_arg2) = _
  after_results
theorem arg3_3 (c : Dev nD) : W3 m ρ c (Proc.devRef .tc main_arg3) = X3 m c := by
  show StableHlo.after hostOps0_2 (StableHlo.after hostOps0_1 (StableHlo.after hostOps0 (W0 m ρ c))) (Proc.devRef .tc main_arg3) = _
  after_results
theorem arg4_3 (c : Dev nD) : W3 m ρ c (Proc.devRef .tc main_arg4) = X4 m c := by
  show StableHlo.after hostOps0_2 (StableHlo.after hostOps0_1 (StableHlo.after hostOps0 (W0 m ρ c))) (Proc.devRef .tc main_arg4) = _
  after_results
theorem arg5_3 (c : Dev nD) : W3 m ρ c (Proc.devRef .tc main_arg5) = X5 m c := by
  show StableHlo.after hostOps0_2 (StableHlo.after hostOps0_1 (StableHlo.after hostOps0 (W0 m ρ c))) (Proc.devRef .tc main_arg5) = _
  after_results
theorem arg6_3 (c : Dev nD) : W3 m ρ c (Proc.devRef .tc main_arg6) = X6 m c := by
  show StableHlo.after hostOps0_2 (StableHlo.after hostOps0_1 (StableHlo.after hostOps0 (W0 m ρ c))) (Proc.devRef .tc main_arg6) = _
  after_results
theorem arg7_3 (c : Dev nD) : W3 m ρ c (Proc.devRef .tc main_arg7) = X7 m c := by
  show StableHlo.after hostOps0_2 (StableHlo.after hostOps0_1 (StableHlo.after hostOps0 (W0 m ρ c))) (Proc.devRef .tc main_arg7) = _
  after_results

/-! ## Layer 1: region 0 multiplies, the host passes the messages -/

/-- Region 0 leaves the product of the node features with the first weight matrix. -/
theorem v31_4 (c : Dev nD) : W4 m ρ c (Proc.devRef .tc main_v31) = linear (X0 m c) (X2 m c) :=
  (W4_arr m ρ c 2).trans ((Region0.final (V3 m ρ) c).trans (congrArg₂ linear (arg0_3 m ρ c) (arg2_3 m ρ c)))

/-- Region 0 writes none of the indices, the edge weights or the later arguments. -/
theorem src_4 (c : Dev nD) : W4 m ρ c (Proc.devRef .tc main_v3) = val_main_v3 (F := Ideal) (X1 m c) :=
  (W4_of_ne m ρ c main_v3 (by decide)).trans (src_3 m ρ c)
theorem dst_4 (c : Dev nD) : W4 m ρ c (Proc.devRef .tc main_v6) = val_main_v6 (F := Ideal) (X1 m c) :=
  (W4_of_ne m ρ c main_v6 (by decide)).trans (dst_3 m ρ c)
theorem nrm_4 (c : Dev nD) : W4 m ρ c (Proc.devRef .tc main_v30) = val_main_v38 (F := Ideal) (X1 m c) :=
  (W4_of_ne m ρ c main_v30 (by decide)).trans (nrm_3 m ρ c)
theorem arg3_4 (c : Dev nD) : W4 m ρ c (Proc.devRef .tc main_arg3) = X3 m c :=
  (W4_of_ne m ρ c main_arg3 (by decide)).trans (arg3_3 m ρ c)
theorem arg4_4 (c : Dev nD) : W4 m ρ c (Proc.devRef .tc main_arg4) = X4 m c :=
  (W4_of_ne m ρ c main_arg4 (by decide)).trans (arg4_3 m ρ c)
theorem arg5_4 (c : Dev nD) : W4 m ρ c (Proc.devRef .tc main_arg5) = X5 m c :=
  (W4_of_ne m ρ c main_arg5 (by decide)).trans (arg5_3 m ρ c)
theorem arg6_4 (c : Dev nD) : W4 m ρ c (Proc.devRef .tc main_arg6) = X6 m c :=
  (W4_of_ne m ρ c main_arg6 (by decide)).trans (arg6_3 m ρ c)
theorem arg7_4 (c : Dev nD) : W4 m ρ c (Proc.devRef .tc main_arg7) = X7 m c :=
  (W4_of_ne m ρ c main_arg7 (by decide)).trans (arg7_3 m ρ c)

/-- The host's two stretches after region 0 pass layer 1's messages. -/
theorem agg1_6 (c : Dev nD) : W6 m ρ c (Proc.devRef .tc main_v38)
    = aggregate (val_main_v3 (F := Ideal) (X1 m c)) (val_main_v6 (F := Ideal) (X1 m c)) (val_main_v38 (F := Ideal) (X1 m c)) (linear (X0 m c) (X2 m c)) := by
  show StableHlo.after hostOps1_1 (StableHlo.after hostOps1 (W4 m ρ c)) (Proc.devRef .tc main_v38) = _
  after_results
  rw [v31_4, src_4, dst_4, nrm_4]
  generalize linear (X0 m c) (X2 m c) = h
  generalize val_main_v3 (F := Ideal) (X1 m c) = s
  generalize val_main_v6 (F := Ideal) (X1 m c) = d
  generalize val_main_v38 (F := Ideal) (X1 m c) = n
  rfl

/-- The bias of layer 1 as the row region 1 reads. -/
theorem row1_6 (c : Dev nD) : W6 m ρ c (Proc.devRef .tc main_v39) = rowOf (X3 m c) := by
  show StableHlo.after hostOps1_1 (StableHlo.after hostOps1 (W4 m ρ c)) (Proc.devRef .tc main_v39) = _
  after_results
  rw [arg3_4]
  exact shapeCast_row (X3 m c) shapeCasts_S64_S1x64

theorem arg4_6 (c : Dev nD) : W6 m ρ c (Proc.devRef .tc main_arg4) = X4 m c := by
  show StableHlo.after hostOps1_1 (StableHlo.after hostOps1 (W4 m ρ c)) (Proc.devRef .tc main_arg4) = _
  after_results
  exact arg4_4 m ρ c

/-! ## The reference's message passing is the kernel's, once the wrapped source index is the source index

The reference gathers at `if s < 0 then s + 100000 else s`; the kernel gathers at `s`. -/

/-- A change of float format is the identity on the extended reals. -/
theorem extf_ideal {s : Shape} (v : FVec Ideal s .bf16) : extf .f32 v bitsLt_bf16_f32 = v := rfl

theorem ref_agg1 (x0 : FVec Ideal S100000x64 .f32) (x1 : IVec S2x1200000 32) (x2 : FVec Ideal S64x64 .f32)
    (hw : val_main_v35 (F := Ideal) x1 = val_main_v3 (F := Ideal) x1) :
    val_main_v43 (F := Ideal) x0 x1 x2
      = aggregate (val_main_v3 (F := Ideal) x1) (val_main_v6 (F := Ideal) x1) (val_main_v38 (F := Ideal) x1) (val_main_v30 (F := Ideal) x0 x2) := by
  unfold val_main_v43 val_main_v40 val_main_v37 val_main_v36 val_main_v42 val_main_v41 val_main_cst_8 val_main_v39 aggregate
  rw [hw, extf_ideal]
  rfl

theorem ref_agg2 (x0 : FVec Ideal S100000x64 .f32) (x1 : IVec S2x1200000 32) (x2 : FVec Ideal S64x64 .f32) (x3 : FVec Ideal S64 .f32)
    (x4 : FVec Ideal S64x64 .f32) (hw : val_main_v53 (F := Ideal) x1 = val_main_v3 (F := Ideal) x1) :
    val_main_v61 (F := Ideal) x0 x1 x2 x3 x4
      = aggregate (val_main_v3 (F := Ideal) x1) (val_main_v6 (F := Ideal) x1) (val_main_v38 (F := Ideal) x1) (val_main_v48 (F := Ideal) x0 x1 x2 x3 x4) := by
  unfold val_main_v61 val_main_v58 val_main_v55 val_main_v54 val_main_v60 val_main_v59 val_main_cst_11 val_main_v57 val_main_v56 aggregate
  rw [hw, extf_ideal]
  rfl

theorem ref_agg3 (x0 : FVec Ideal S100000x64 .f32) (x1 : IVec S2x1200000 32) (x2 : FVec Ideal S64x64 .f32) (x3 : FVec Ideal S64 .f32)
    (x4 : FVec Ideal S64x64 .f32) (x5 : FVec Ideal S64 .f32) (x6 : FVec Ideal S64x64 .f32)
    (hw : val_main_v71 (F := Ideal) x1 = val_main_v3 (F := Ideal) x1) :
    val_main_v79 (F := Ideal) x0 x1 x2 x3 x4 x5 x6
      = aggregate (val_main_v3 (F := Ideal) x1) (val_main_v6 (F := Ideal) x1) (val_main_v38 (F := Ideal) x1) (val_main_v66 (F := Ideal) x0 x1 x2 x3 x4 x5 x6) := by
  unfold val_main_v79 val_main_v76 val_main_v73 val_main_v72 val_main_v78 val_main_v77 val_main_cst_14 val_main_v75 val_main_v74 aggregate
  rw [hw, extf_ideal]
  rfl

/-! ## Layer 1 closed, under the wrap's being the identity -/

section Layer1

variable (c : Dev nD)
variable (hw1 : val_main_v35 (F := Ideal) (X1 m c) = val_main_v3 (F := Ideal) (X1 m c))

include hw1 in
/-- Layer 1's messages, summed: the reference's stage. -/
theorem s1_6 : W6 m ρ c (Proc.devRef .tc main_v38) = val_main_v43 (F := Ideal) (X0 m c) (X1 m c) (X2 m c) := by
  rw [agg1_6, ref_agg1 (X0 m c) (X1 m c) (X2 m c) hw1, Cert.ReferenceIdeal.Layers.v30_eq]

include hw1 in
/-- Region 1 leaves the reference's second product. -/
theorem v40_7 : W7 m ρ c (Proc.devRef .tc main_v40) = val_main_v48 (F := Ideal) (X0 m c) (X1 m c) (X2 m c) (X3 m c) (X4 m c) := by
  refine (W7_arr m ρ c 3).trans ((Region1.final (V6 m ρ) c).trans ?_)
  rw [Cert.ReferenceIdeal.Layers.v48_eq, Cert.ReferenceIdeal.Layers.v47_eq]
  exact congrArg₂ linear (congrArg₂ biasRelu (s1_6 m ρ c hw1) (row1_6 m ρ c)) (arg4_6 m ρ c)

end Layer1

/-! ## Layer 2

Neither the host stretches of layer 1 nor region 1 write the indices, the edge weights or the later arguments. -/

theorem src_7 (c : Dev nD) : W7 m ρ c (Proc.devRef .tc main_v3) = val_main_v3 (F := Ideal) (X1 m c) := by
  refine (W7_of_ne m ρ c main_v3 (by decide)).trans ?_
  show StableHlo.after hostOps1_1 (StableHlo.after hostOps1 (W4 m ρ c)) (Proc.devRef .tc main_v3) = _
  after_results
  exact src_4 m ρ c
theorem dst_7 (c : Dev nD) : W7 m ρ c (Proc.devRef .tc main_v6) = val_main_v6 (F := Ideal) (X1 m c) := by
  refine (W7_of_ne m ρ c main_v6 (by decide)).trans ?_
  show StableHlo.after hostOps1_1 (StableHlo.after hostOps1 (W4 m ρ c)) (Proc.devRef .tc main_v6) = _
  after_results
  exact dst_4 m ρ c
theorem nrm_7 (c : Dev nD) : W7 m ρ c (Proc.devRef .tc main_v30) = val_main_v38 (F := Ideal) (X1 m c) := by
  refine (W7_of_ne m ρ c main_v30 (by decide)).trans ?_
  show StableHlo.after hostOps1_1 (StableHlo.after hostOps1 (W4 m ρ c)) (Proc.devRef .tc main_v30) = _
  after_results
  exact nrm_4 m ρ c
theorem arg5_7 (c : Dev nD) : W7 m ρ c (Proc.devRef .tc main_arg5) = X5 m c := by
  refine (W7_of_ne m ρ c main_arg5 (by decide)).trans ?_
  show StableHlo.after hostOps1_1 (StableHlo.after hostOps1 (W4 m ρ c)) (Proc.devRef .tc main_arg5) = _
  after_results
  exact arg5_4 m ρ c
theorem arg6_7 (c : Dev nD) : W7 m ρ c (Proc.devRef .tc main_arg6) = X6 m c := by
  refine (W7_of_ne m ρ c main_arg6 (by decide)).trans ?_
  show StableHlo.after hostOps1_1 (StableHlo.after hostOps1 (W4 m ρ c)) (Proc.devRef .tc main_arg6) = _
  after_results
  exact arg6_4 m ρ c
theorem arg7_7 (c : Dev nD) : W7 m ρ c (Proc.devRef .tc main_arg7) = X7 m c := by
  refine (W7_of_ne m ρ c main_arg7 (by decide)).trans ?_
  show StableHlo.after hostOps1_1 (StableHlo.after hostOps1 (W4 m ρ c)) (Proc.devRef .tc main_arg7) = _
  after_results
  exact arg7_4 m ρ c

/-- The bias of layer 2 as the row region 2 reads. -/
theorem row2_9 (c : Dev nD) : W9 m ρ c (Proc.devRef .tc main_v48) = rowOf (X5 m c) := by
  show StableHlo.after hostOps2_1 (StableHlo.after hostOps2 (W7 m ρ c)) (Proc.devRef .tc main_v48) = _
  after_results
  rw [arg5_7]
  exact shapeCast_row (X5 m c) shapeCasts_S64_S1x64

theorem arg6_9 (c : Dev nD) : W9 m ρ c (Proc.devRef .tc main_arg6) = X6 m c := by
  show StableHlo.after hostOps2_1 (StableHlo.after hostOps2 (W7 m ρ c)) (Proc.devRef .tc main_arg6) = _
  after_results
  exact arg6_7 m ρ c

section Layer2

variable (c : Dev nD)
variable (hw1 : val_main_v35 (F := Ideal) (X1 m c) = val_main_v3 (F := Ideal) (X1 m c))
variable (hw2 : val_main_v53 (F := Ideal) (X1 m c) = val_main_v3 (F := Ideal) (X1 m c))

/-- The host's two stretches after region 1 pass layer 2's messages: whatever region 1 left, as a plain function of the
    index, is gathered, weighted and summed. -/
theorem agg2_of (h : SN.Idx → EReal) (hv : W7 m ρ c (Proc.devRef .tc main_v40) = h) : W9 m ρ c (Proc.devRef .tc main_v47)
    = aggregate (val_main_v3 (F := Ideal) (X1 m c)) (val_main_v6 (F := Ideal) (X1 m c)) (val_main_v38 (F := Ideal) (X1 m c)) h := by
  show StableHlo.after hostOps2_1 (StableHlo.after hostOps2 (W7 m ρ c)) (Proc.devRef .tc main_v47) = _
  after_results
  rw [hv, src_7, dst_7, nrm_7]
  generalize val_main_v3 (F := Ideal) (X1 m c) = s
  generalize val_main_v6 (F := Ideal) (X1 m c) = d
  generalize val_main_v38 (F := Ideal) (X1 m c) = n
  rfl

include hw1 hw2 in
/-- Layer 2's messages, summed: the reference's stage. -/
theorem s2_9 : W9 m ρ c (Proc.devRef .tc main_v47) = val_main_v61 (F := Ideal) (X0 m c) (X1 m c) (X2 m c) (X3 m c) (X4 m c) := by
  rw [agg2_of m ρ c _ (v40_7 m ρ c hw1), ref_agg2 (X0 m c) (X1 m c) (X2 m c) (X3 m c) (X4 m c) hw2]

include hw1 hw2 in
/-- Region 2 leaves the reference's third product. -/
theorem v49_10 : W10 m ρ c (Proc.devRef .tc main_v49) = val_main_v66 (F := Ideal) (X0 m c) (X1 m c) (X2 m c) (X3 m c) (X4 m c) (X5 m c) (X6 m c) := by
  refine (W10_arr m ρ c 3).trans ((Region2.final (V9 m ρ) c).trans ?_)
  rw [Cert.ReferenceIdeal.Layers.v66_eq, Cert.ReferenceIdeal.Layers.v65_eq]
  exact congrArg₂ linear (congrArg₂ biasRelu (s2_9 m ρ c hw1 hw2) (row2_9 m ρ c)) (arg6_9 m ρ c)

end Layer2

/-! ## Layer 3 and the packed bias add

Neither the host stretches of layer 2 nor region 2 write the indices, the edge weights or the last bias. -/

theorem src_10 (c : Dev nD) : W10 m ρ c (Proc.devRef .tc main_v3) = val_main_v3 (F := Ideal) (X1 m c) := by
  refine (W10_of_ne m ρ c main_v3 (by decide)).trans ?_
  show StableHlo.after hostOps2_1 (StableHlo.after hostOps2 (W7 m ρ c)) (Proc.devRef .tc main_v3) = _
  after_results
  exact src_7 m ρ c
theorem dst_10 (c : Dev nD) : W10 m ρ c (Proc.devRef .tc main_v6) = val_main_v6 (F := Ideal) (X1 m c) := by
  refine (W10_of_ne m ρ c main_v6 (by decide)).trans ?_
  show StableHlo.after hostOps2_1 (StableHlo.after hostOps2 (W7 m ρ c)) (Proc.devRef .tc main_v6) = _
  after_results
  exact dst_7 m ρ c
theorem nrm_10 (c : Dev nD) : W10 m ρ c (Proc.devRef .tc main_v30) = val_main_v38 (F := Ideal) (X1 m c) := by
  refine (W10_of_ne m ρ c main_v30 (by decide)).trans ?_
  show StableHlo.after hostOps2_1 (StableHlo.after hostOps2 (W7 m ρ c)) (Proc.devRef .tc main_v30) = _
  after_results
  exact nrm_7 m ρ c
theorem arg7_10 (c : Dev nD) : W10 m ρ c (Proc.devRef .tc main_arg7) = X7 m c := by
  refine (W10_of_ne m ρ c main_arg7 (by decide)).trans ?_
  show StableHlo.after hostOps2_1 (StableHlo.after hostOps2 (W7 m ρ c)) (Proc.devRef .tc main_arg7) = _
  after_results
  exact arg7_7 m ρ c

/-- The last bias, laid out twice along a row of 128, as region 3 reads it. -/
theorem wide_12 (c : Dev nD) : W12 m ρ c (Proc.devRef .tc main_v61)
    = shapeCast SQ (shapeCast SU (broadcastInDim ST ![0, 1] bcast_S1x64_S2x64_0_1 (shapeCast SR (X7 m c) shapeCasts_S64_S1x64)) shapeCasts_S2x64_S128) shapeCasts_S128_S1x128 := by
  show StableHlo.after hostOps3_1 (StableHlo.after hostOps3 (W10 m ρ c)) (Proc.devRef .tc main_v61) = _
  after_results
  rw [arg7_10]
  rfl

section Layer3

variable (c : Dev nD)
variable (hw1 : val_main_v35 (F := Ideal) (X1 m c) = val_main_v3 (F := Ideal) (X1 m c))
variable (hw2 : val_main_v53 (F := Ideal) (X1 m c) = val_main_v3 (F := Ideal) (X1 m c))
variable (hw3 : val_main_v71 (F := Ideal) (X1 m c) = val_main_v3 (F := Ideal) (X1 m c))

/-- The host's stretches after region 2 pass layer 3's messages and pack the sums two rows to a row of 128: whatever
    region 2 left, as a plain function of the index, is gathered, weighted, summed and packed. -/
theorem agg3_of (h : SN.Idx → EReal) (hv : W10 m ρ c (Proc.devRef .tc main_v49) = h) : W12 m ρ c (Proc.devRef .tc main_v57)
    = shapeCast SP (aggregate (val_main_v3 (F := Ideal) (X1 m c)) (val_main_v6 (F := Ideal) (X1 m c)) (val_main_v38 (F := Ideal) (X1 m c)) h)
        shapeCasts_S100000x64_S50000x128 := by
  show StableHlo.after hostOps3_1 (StableHlo.after hostOps3 (W10 m ρ c)) (Proc.devRef .tc main_v57) = _
  after_results
  rw [hv, src_10, dst_10, nrm_10]
  generalize val_main_v3 (F := Ideal) (X1 m c) = s
  generalize val_main_v6 (F := Ideal) (X1 m c) = d
  generalize val_main_v38 (F := Ideal) (X1 m c) = n
  rfl

include hw1 hw2 hw3 in
/-- Layer 3's messages, summed and packed: the reference's stage, packed. -/
theorem packed_12 : W12 m ρ c (Proc.devRef .tc main_v57)
    = shapeCast SP (val_main_v79 (F := Ideal) (X0 m c) (X1 m c) (X2 m c) (X3 m c) (X4 m c) (X5 m c) (X6 m c)) shapeCasts_S100000x64_S50000x128 := by
  rw [agg3_of m ρ c _ (v49_10 m ρ c hw1 hw2), ref_agg3 (X0 m c) (X1 m c) (X2 m c) (X3 m c) (X4 m c) (X5 m c) (X6 m c) hw3]

include hw1 hw2 hw3 in
/-- THE RESULT: the kernel's result buffer holds the reference's last stage. -/
theorem result_eq : W14 m ρ c (Proc.devRef .tc main_v63)
    = val_main_v82 (F := Ideal) (X0 m c) (X1 m c) (X2 m c) (X3 m c) (X4 m c) (X5 m c) (X6 m c) (X7 m c) := by
  have h62 : W13 m ρ c (Proc.devRef .tc main_v62)
      = addWide (shapeCast SP (val_main_v79 (F := Ideal) (X0 m c) (X1 m c) (X2 m c) (X3 m c) (X4 m c) (X5 m c) (X6 m c)) shapeCasts_S100000x64_S50000x128)
          (shapeCast SQ (shapeCast SU (broadcastInDim ST ![0, 1] bcast_S1x64_S2x64_0_1 (shapeCast SR (X7 m c) shapeCasts_S64_S1x64)) shapeCasts_S2x64_S128) shapeCasts_S128_S1x128) :=
    (W13_arr m ρ c 2).trans ((Region3.final (V12 m ρ) c).trans (congrArg₂ addWide (packed_12 m ρ c hw1 hw2 hw3) (wide_12 m ρ c)))
  show StableHlo.after hostOps4 (W13 m ρ c) (Proc.devRef .tc main_v63) = _
  after_results
  rw [h62, Cert.ReferenceIdeal.Layers.v82_eq]
  exact untile _ _ shapeCasts_S100000x64_S50000x128 shapeCasts_S50000x128_S100000x64 shapeCasts_S64_S1x64 bcast_S1x64_S2x64_0_1 shapeCasts_S2x64_S128 shapeCasts_S128_S1x128

end Layer3

end Cert.KernelIdeal.HostChain

end
-- ==== Proof.lean ====
/-
  A three-layer graph convolution over 100000 nodes with 64 features and 1200000 edges plus one self loop per node.
  Per layer: multiply the node features by a 64 × 64 weight matrix, gather the rows at each edge's source, scale each by
  the edge's weight (the product of its two end nodes' inverse square-root degrees), sum into the edge's destination
  row, add the bias; a relu after layers 1 and 2.

  The kernel's program does the three products (and, fused with layers 2 and 3, the previous layer's bias and relu) in
  pallas_calls tiled over the node axis, the last bias add in a fourth one on the features packed two rows to a row of
  128, and leaves gather, scaling and segment sum to the host; the reference does everything on the host. On the
  extended reals a change of float format is the identity, so region by region the kernel's arrays are the reference's
  stages (Proof/Region0 … Region3 for the regions, Proof/RefLayers for the reference's stages in the same vocabulary,
  Proof/Untile for the packed layout).

  The two programs differ in ONE place: the reference reads a row at `if s < 0 then s + 100000 else s` for a source
  index `s`, the kernel at `s` (both then clamped into range). The precondition says every entry of the edge list is a
  node number, 0 ≤ e < 100000, so no source index is negative and the two reads are one (Proof/SourceIndex).
  Proof/KernelValue follows the kernel's buffers from the launch to the result; Proof/KernelRun is the run that ends
  with the result buffer at those contents; Proof/RefRun is the reference's run.
-/
import proofs.«418978_j88115549044789_2_alg».proof.Defs
import proofs.«418978_j88115549044789_2_alg».proof.Proof.Gen.Kernel
import proofs.«418978_j88115549044789_2_alg».proof.Proof.Gen.Kernel.Skeleton
import proofs.«418978_j88115549044789_2_alg».proof.Proof.Gen.Kernel.Launch
import proofs.«418978_j88115549044789_2_alg».proof.Proof.Gen.Kernel.Points
import proofs.«418978_j88115549044789_2_alg».proof.Proof.Gen.Kernel.Frame
import proofs.«418978_j88115549044789_2_alg».proof.Proof.Gen.KernelIdeal
import proofs.«418978_j88115549044789_2_alg».proof.Proof.Gen.KernelIdeal.Skeleton
import proofs.«418978_j88115549044789_2_alg».proof.Proof.Gen.KernelIdeal.Launch
import proofs.«418978_j88115549044789_2_alg».proof.Proof.Gen.KernelIdeal.Points
import proofs.«418978_j88115549044789_2_alg».proof.Proof.Gen.KernelIdeal.Frame
import proofs.«418978_j88115549044789_2_alg».proof.Proof.Gen.ReferenceIdeal
import proofs.«418978_j88115549044789_2_alg».proof.Proof.Gen.Pre_finite_inputs
import proofs.«418978_j88115549044789_2_alg».proof.Proof.KernelRun
import proofs.«418978_j88115549044789_2_alg».proof.Proof.KernelValue
import proofs.«418978_j88115549044789_2_alg».proof.Proof.RefRun
import proofs.«418978_j88115549044789_2_alg».proof.Proof.RefRead
import proofs.«418978_j88115549044789_2_alg».proof.Proof.SourceIndex
import Idealize.ShloMosaic.Adequacy
import Idealize.ShloMosaic.Init

noncomputable section

namespace Cert.Proof

open Idealize.ShloMosaic Idealize.ShloMosaic.TcCoe Idealize.SL.Sem

/-- The kernel's program runs and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments as launched: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the arguments, both programs end with the same result: the kernel's result buffer
    holds the reference's last stage of the arguments, every entry of the edge list being a node number. -/
theorem algebraic : Cert.algebraic_KernelIdeal_ReferenceIdeal := by
  intro m ρ m' ρ' hpre hagree
  refine ⟨fun c => Cert.KernelIdeal.Gen.W14 m ρ c (Proc.devRef .tc Cert.KernelIdeal.main_v63),
    Cert.KernelIdeal.ValueRun.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [Cert.ReferenceIdeal.ReadP.val_main_v82_eq, e0, e1, e2, e3, e4, e5, e6, e7]
  obtain ⟨hw1, hw2, hw3⟩ := Cert.ReferenceIdeal.SourceIndex.wrap_eq _ _ _ _ _ _ _ _ (hpre c)
  exact (Cert.KernelIdeal.HostChain.result_eq m ρ c hw1 hw2 hw3).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
